-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v50 : IVec S2x800000 1) : IVec S_ 1 :=
  let main_c_19 : IVec S_ 32 := constantI S_ 32 50000#32
  let main_v51 : IVec S2x800000 32 := broadcastInDim S2x800000 ![] bcast_S_S2x800000 main_c_19
  let main_v52 : IVec S2x800000 1 := cmpi .slt main_arg1 main_v51
  let main_v53 : IVec S2x800000 1 := andi main_v50 main_v52
  let main_c_20 : IVec S_ 1 := constantI S_ 1 1#1
  let main_v54 : IVec S_ 1 := (fun x v => Host.reduce IntOp.andi x v reducesTo_S2x800000_S_d0_1 h_S_) main_v53 main_c_20
  let main_v55 : IVec S_ 1 := andi main_v48 main_v54
  main_v55

def fn_part2 {F : FTy → Type} [FloatOps F] (main_arg1 : IVec S2x800000 32) (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 4294917296#32
  let main_v49 : IVec S2x800000 32 := broadcastInDim S2x800000 ![] bcast_S_S2x800000 main_c_18
  let main_v50 : IVec S2x800000 1 := cmpi .sge main_arg1 main_v49
  fn_part3 (F := F) main_arg1 main_v48 main_v50

def fn_part1 {F : FTy → Type} [FloatOps F] (main_arg1 : IVec S2x800000 32) (main_arg5 : FVec F S128x64 .f32) (main_arg6 : FVec F S64 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x64 .f32) (main_arg1 : IVec S2x800000 32) (main_arg2 : FVec F S800000x64 .f32) (main_arg3 : FVec F S192x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S64x128 : Shape := ⟨2, ![64, 128]⟩
abbrev S1x128 : Shape := ⟨2, ![1, 128]⟩
abbrev S1x64 : Shape := ⟨2, ![1, 64]⟩
abbrev S16000x64 : Shape := ⟨2, ![16000, 64]⟩
abbrev S16000x128 : Shape := ⟨2, ![16000, 128]⟩
abbrev S50000 : Shape := ⟨1, ![50000]⟩
abbrev S50000x1 : Shape := ⟨2, ![50000, 1]⟩
abbrev S10000x64 : Shape := ⟨2, ![10000, 64]⟩
abbrev S10000x1 : Shape := ⟨2, ![10000, 1]⟩
abbrev S10000x128 : Shape := ⟨2, ![10000, 128]⟩

abbrev nBuf : Space → Nat
  | .hbm => 83
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S192x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x64, .f32⟩
  | .hbm, ⟨34, _⟩ => ⟨S800000x64, .i1⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S1, .i32⟩
  | .hbm, ⟨47, _⟩ => ⟨S_, .i32⟩
  | .hbm, ⟨48, _⟩ => ⟨S800000x1, .i32⟩
  | .hbm, ⟨49, _⟩ => ⟨S800000x1, .i1⟩
  | .hbm, ⟨50, _⟩ => ⟨S1x1, .i32⟩
  | .hbm, ⟨51, _⟩ => ⟨S800000x1, .i32⟩
  | .hbm, ⟨52, _⟩ => ⟨S800000x1, .i1⟩
  | .hbm, ⟨53, _⟩ => ⟨S800000x1, .i1⟩
  | .hbm, ⟨54, _⟩ => ⟨S_, .i1⟩
  | .hbm, ⟨55, _⟩ => ⟨S800000, .i1⟩
  | .hbm, ⟨56, _⟩ => ⟨S800000x64, .f32⟩
  | .hbm, ⟨57, _⟩ => ⟨S800000x64, .i1⟩
  | .hbm, ⟨58, _⟩ => ⟨S_, .f32⟩
  | .hbm, ⟨59, _⟩ => ⟨S800000x64, .f32⟩
  | .hbm, ⟨60, _⟩ => ⟨S800000x64, .f32⟩
  | .hbm, ⟨61, _⟩ => ⟨S64x128, .f32⟩
  | .hbm, ⟨62, _⟩ => ⟨S64x128, .f32⟩
  | .hbm, ⟨63, _⟩ => ⟨S64x128, .f32⟩
  | .hbm, ⟨64, _⟩ => ⟨S64x128, .f32⟩
  | .hbm, ⟨65, _⟩ => ⟨S64x128, .f32⟩
  | .hbm, ⟨66, _⟩ => ⟨S1x128, .f32⟩
  | .hbm, ⟨67, _⟩ => ⟨S1x64, .f32⟩
  | .hbm, ⟨68, _⟩ => ⟨S1x128, .f32⟩
  | .hbm, ⟨69, _⟩ => ⟨S1x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S_, .f32⟩
  | .hbm, ⟨76, _⟩ => ⟨S800000, .f32⟩
  | .hbm, ⟨77, _⟩ => ⟨S_, .f32⟩
  | .hbm, ⟨78, _⟩ => ⟨S50000, .f32⟩
  | .hbm, ⟨79, _⟩ => ⟨S800000x1, .i32⟩
  | .hbm, ⟨80, _⟩ => ⟨S50000, .f32⟩
  | .hbm, ⟨81, _⟩ => ⟨S50000x1, .f32⟩
  | .hbm, ⟨82, _⟩ => ⟨S50000x64, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S16000x64, .f32⟩
  | .local _ .vmem, ⟨5, _⟩ => ⟨S16000x64, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S16000x64, .f32⟩
  | .local _ .vmem, ⟨13, _⟩ => ⟨S16000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S64x128, .f32⟩
  | .local _ .vmem, ⟨21, _⟩ => ⟨S64x128, .f32⟩
  | .local _ .vmem, ⟨22, _⟩ => ⟨S1x128, .f32⟩
  | .local _ .vmem, ⟨23, _⟩ => ⟨S128x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_cst : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_cst_0 : Ref sig .tc := ⟨.hbm, 75, rfl⟩
abbrev main_v19 : Ref sig .tc := ⟨.hbm, 76, rfl⟩
abbrev main_cst_1 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S192x128_S64x128_0_0 : S192x128.Slices ![0, 0] S64x128
  slices_S192x128_S64x128_64_0 : S192x128.Slices ![64, 0] S64x128
  slices_S192x128_S64x128_128_0 : S192x128.Slices ![128, 0] S64x128
  slices_S128x128_S64x128_0_0 : S128x128.Slices ![0, 0] S64x128
  slices_S128x128_S64x128_64_0 : S128x128.Slices ![64, 0] S64x128
  shapeCasts_S128_S1x128 : S128.ShapeCasts S1x128
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  broadcasts_S1x128_S10000x128 : S1x128.Broadcasts S10000x128
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  dot_S16000x64_S64x128_S16000x128_1_0_0_1_n_n_wf : DotDims.WF S16000x64 S64x128 S16000x128 [1] [0] [0] [1] [] []
  dot_S16000x128_S128x64_S16000x64_1_0_0_1_n_n_wf : DotDims.WF S16000x128 S128x64 S16000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .f32 = 32 ∨ (Rect.block (s := S800000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S800000x64.size a
  hwx0_1 : ∀ i : grid0.Coords, EltTy.bits .f32 = 32 ∨ (Rect.block (s := S800000x64) S16000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S800000x64.size a
  hwx0_2 : ∀ i : grid0.Coords, EltTy.bits .f32 = 32 ∨ (Rect.block (s := S800000x64) S16000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x64.size a ≤ S800000x64.size a
  hwx0_9 : ∀ i : grid0.Coords, EltTy.bits .f32 = 32 ∨ (Rect.block (s := S800000x64) S16000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x64.size a ≤ S50000x64.size a
  hwx1_8 : ∀ i : grid1.Coords, EltTy.bits .f32 = 32 ∨ (Rect.block (s := S50000x64) S10000x64.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v4) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S16000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S10000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000 : Shape := ⟨1, ![50000]⟩
abbrev S50000x1 : Shape := ⟨2, ![50000, 1]⟩
abbrev S50000x128 : Shape := ⟨2, ![50000, 128]⟩

abbrev nBuf : Space → Nat
  | .hbm => 73
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S192x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x192, .f32⟩
  | .hbm, ⟨34, _⟩ => ⟨S800000x128, .f32⟩
  | .hbm, ⟨35, _⟩ => ⟨S1x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The two perceptrons of the message-passing layer, as functions of whole arrays read index by index on the
  extended reals.  A row of the edge stage has 192 features — the source node's 64, the target node's 64 and the
  edge's own 64 — and a row of the node stage has 128: the node's 64 and the mean of the messages that arrive at
  it.  One program joins the pieces and multiplies once by the first weight matrix; the other multiplies each
  piece by its own 64-row slab and adds the products.  `edgeK` and `nodeK` are the second spelling, `mlpR` the
  first; the sizes of the row axis are parameters so that the same function describes a block of rows and the
  whole array.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr2 (n m : Nat) : Type := (⟨2, ![n, m]⟩ : Shape).Idx → EReal
/-- A rank-1 array of extended reals. -/
abbrev Arr1 (n : Nat) : Type := (⟨1, ![n]⟩ : Shape).Idx → EReal

/-- The f32 word of zero, read on the extended reals (the threshold of the rectifier). -/
abbrev zeroW : EReal := Ideal.ofBits .f32 0x00000000#32
/-- The f32 word of one (the least divisor of a mean). -/
abbrev oneW : EReal := Ideal.ofBits .f32 0x3F800000#32

/-- Edge stage, slab by slab: entry `(e, j)` of `relu(xr·Wa + xc·Wb + ea·Wc + b1)·W2 + b2`, the three products
    added in that order, the biases given as one-row matrices. -/
def edgeK {E : Nat} (xr xc ea : Arr2 E 64) (wa wb wc : Arr2 64 128) (b1 : Arr2 1 128) (w2 : Arr2 128 64)
    (b2 : Arr2 1 64) (e : Fin E) (j : Fin 64) : EReal :=
  (∑ k : Fin 128,
      max ((((∑ a : Fin 64, xr (ix2 e a) * wa (ix2 a k)) + (∑ a : Fin 64, xc (ix2 e a) * wb (ix2 a k)))
            + (∑ a : Fin 64, ea (ix2 e a) * wc (ix2 a k))) + b1 (ix2 (0 : Fin 1) k)) zeroW
        * w2 (ix2 k j))
    + b2 (ix2 (0 : Fin 1) j)

/-- Node stage, slab by slab: entry `(n, j)` of `relu(x·Wa + (agg / max(cnt, 1))·Wb + b1)·W2 + b2`, the count a
    one-column matrix. -/
def nodeK {N : Nat} (x agg : Arr2 N 64) (cnt : Arr2 N 1) (wa wb : Arr2 64 128) (b1 : Arr2 1 128)
    (w2 : Arr2 128 64) (b2 : Arr2 1 64) (n : Fin N) (j : Fin 64) : EReal :=
  (∑ k : Fin 128,
      max (((∑ a : Fin 64, x (ix2 n a) * wa (ix2 a k))
            + (∑ a : Fin 64, Ideal.div (agg (ix2 n a)) (max (cnt (ix2 n (0 : Fin 1))) oneW) * wb (ix2 a k)))
            + b1 (ix2 (0 : Fin 1) k)) zeroW
        * w2 (ix2 k j))
    + b2 (ix2 (0 : Fin 1) j)

/-- The perceptron on joined rows: entry `(e, j)` of `relu(u·W1 + b1)·W2 + b2` for rows of `K` features. -/
def mlpR {E K : Nat} (u : Arr2 E K) (w1 : Arr2 K 128) (b1 : Arr1 128) (w2 : Arr2 128 64) (b2 : Arr1 64)
    (e : Fin E) (j : Fin 64) : EReal :=
  (∑ k : Fin 128, max ((∑ a : Fin K, u (ix2 e a) * w1 (ix2 a k)) + b1 (ix1 k)) zeroW * w2 (ix2 k j)) + b2 (ix1 j)

end Cert.Spec

end
-- ==== Proof.HostTerms.lean ====
/-
  The host operations around the two kernel regions, named as functions of the arrays they read: the two index
  rows of the edge list, an index counted from the end moved into range, the test that a moved index lies in
  `[0, 49999]`, and a row lookup that answers a fill value where that test fails.
-/
import proofs.«403002_j19292993094376_4_alg».proof.Proof.Gen.KernelIdeal

noncomputable section

namespace Cert.KernelIdeal.HostTerms

open Cert.KernelIdeal Cert.KernelIdeal.Gen Idealize.ShloMosaic

variable {F : FTy → Type} [FloatOps F]

/-- Row 0 of the edge list: the source node of every edge. -/
def idxRow (ei : IVec S2x800000 32) : IVec S800000 32 :=
  shapeCast _ (extractStridedSlice S1x800000 ![0, 0] ei slices_S2x800000_S1x800000_0_0) shapeCasts_S1x800000_S800000

/-- Row 1 of the edge list: the target node of every edge. -/
def idxCol (ei : IVec S2x800000 32) : IVec S800000 32 :=
  shapeCast _ (extractStridedSlice S1x800000 ![1, 0] ei slices_S2x800000_S1x800000_1_0) shapeCasts_S1x800000_S800000

/-- A negative index counts from the end: `r + 50000` where `r < 0`, else `r`; as a one-column matrix. -/
def wrapIdx (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- Whether the moved index of each edge lies in `[0, 49999]`, repeated along the 64 features. -/
def inRange (n : IVec S800000x1 32) : IVec S800000x64 1 :=
  broadcastInDim S800000x64 ![0] bcast_S800000_S800000x64_0
    (Host.reduce IntOp.andi
      (andi (cmpi .sge n (broadcastInDim S800000x1 ![] bcast_S_S800000x1 (constantI S_ 32 0#32)))
        (cmpi .sle n (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The rows of `x` at the moved indices (the lookup itself clamps an index into the table). -/
def gatherRows (x : FVec F S50000x64 .f32) (r : IVec S800000 32) : FVec F S800000x64 .f32 :=
  Host.gather gather_S50000x64_S800000x1_S800000x64_1_0_n_n_0_1_164 x (wrapIdx r)

/-- The lookup that fills: the looked-up row where the moved index is in range, the quiet-NaN word elsewhere. -/
def takeFill (x : FVec F S50000x64 .f32) (r : IVec S800000 32) : FVec F S800000x64 .f32 :=
  select (inRange (wrapIdx r)) (gatherRows x r)
    (broadcastInDim S800000x64 ![] bcast_S_S800000x64 (constant S_ .f32 0x7FC00000#32))

/-- The messages summed at their target nodes, from zero. -/
def aggSum (ei : IVec S2x800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (idxCol ei)) u

/-- How many edges arrive at each node: ones summed at the target nodes, from zero. -/
def cntSum (ei : IVec S2x800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (idxCol ei))
    (broadcastInDim S800000 ![] bcast_S_S800000 (constant S_ .f32 0x3F800000#32))

end Cert.KernelIdeal.HostTerms

end
-- ==== Proof.EdgeValue.lean ====
/-
  The edge region's value.  At row p and column q of a block of 16000 edges the body computes the slab-by-slab edge
  perceptron of the nine blocks it loads: three products of a 16000×64 block by a 64×128 slab, each a sum over the 64
  inner positions, added in order, the bias row added, the rectifier, a product by the 128×64 second matrix, a sum over
  128, and the second bias row.  The three row windows move with the output window (block t is rows 16000·t … 16000·t +
  15999) and the six weight windows are whole arrays at every point, so what point t writes back is block t of ONE
  function of the arrays the region finds; the fifty blocks cover the array.
-/
import proofs.«403002_j19292993094376_4_alg».proof.Proof.Gen.KernelIdeal.Frame
import proofs.«403002_j19292993094376_4_alg».proof.Proof.Spec
import proofs.«403002_j19292993094376_4_alg».proof.Proof.HostTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue
open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The body's arithmetic at an index -/

/-- The left operand's row of the product mmA is the output's row. -/
theorem lhs_mmA_0 (i : S16000x128.Idx) (q : dot_S16000x64_S64x128_S16000x128_1_0_0_1_n_n.contr.Idx) :
    (dot_S16000x64_S64x128_S16000x128_1_0_0_1_n_n.lhsIdx i q 0).val = (i 0).val := by
  unfold DotDims.lhsIdx
  rw [dif_neg (show ¬(0 : Fin S16000x64.rank) ∈ dot_S16000x64_S64x128_S16000x128_1_0_0_1_n_n.lhsBatch by decide), dif_pos (show (0 : Fin S16000x64.rank) ∈ dot_S16000x64_S64x128_S16000x128_1_0_0_1_n_n.lhsNonContracting by decide)]
  rfl
/-- The left operand's column is the summation index. -/
theorem lhs_mmA_1 (i : S16000x128.Idx) (q : dot_S16000x64_S64x128_S16000x128_1_0_0_1_n_n.contr.Idx) :
    (dot_S16000x64_S64x128_S16000x128_1_0_0_1_n_n.lhsIdx i q 1).val = (q ⟨0, by decide⟩).val :=
  dot_S16000x64_S64x128_S16000x128_1_0_0_1_n_n.lhsIdx_val_of_single rfl i q
/-- The right operand's row is the summation index. -/
theorem rhs_mmA_0 (i : S16000x128.Idx) (q : dot_S16000x64_S64x128_S16000x128_1_0_0_1_n_n.contr.Idx) :
    (dot_S16000x64_S64x128_S16000x128_1_0_0_1_n_n.rhsIdx i q 0).val = (q ⟨0, by decide⟩).val :=
  dot_S16000x64_S64x128_S16000x128_1_0_0_1_n_n.rhsIdx_val_of_single rfl i q
/-- The right operand's column is the output's column. -/
theorem rhs_mmA_1 (i : S16000x128.Idx) (q : dot_S16000x64_S64x128_S16000x128_1_0_0_1_n_n.contr.Idx) :
    (dot_S16000x64_S64x128_S16000x128_1_0_0_1_n_n.rhsIdx i q 1).val = (i 1).val := by
  unfold DotDims.rhsIdx
  rw [dif_neg (show ¬(1 : Fin S64x128.rank) ∈ dot_S16000x64_S64x128_S16000x128_1_0_0_1_n_n.rhsBatch by decide), dif_pos (show (1 : Fin S64x128.rank) ∈ dot_S16000x64_S64x128_S16000x128_1_0_0_1_n_n.rhsNonContracting by decide)]
  rfl

/-- A product into the zero array, at row `p` and column `k`: the sum over the 64 inner positions. -/
theorem mmA_apply (l : FVec Ideal S16000x64 .f32) (r : FVec Ideal S64x128 .f32) (p : Fin 16000) (k : Fin 128) :
    matmul dot_S16000x64_S64x128_S16000x128_1_0_0_1_n_n none l r (constant (F := Ideal) S16000x128 .f32 0x00000000#32) (ix2 p k)
      = ∑ a : Fin 64, l (ix2 p a) * r (ix2 a k) := by
  simp only [matmul]
  rw [Ideal.matmul_constant_zero_apply, ← Equiv.sum_comp (contrEquiv1 dot_S16000x64_S64x128_S16000x128_1_0_0_1_n_n 64 rfl rfl).symm]
  refine Finset.sum_congr rfl fun a _ => ?_
  have hk := contrEquiv1_symm_val dot_S16000x64_S64x128_S16000x128_1_0_0_1_n_n 64 rfl rfl a
  have el : dot_S16000x64_S64x128_S16000x128_1_0_0_1_n_n.lhsIdx (ix2 p k) ((contrEquiv1 dot_S16000x64_S64x128_S16000x128_1_0_0_1_n_n 64 rfl rfl).symm a) = ix2 p a := funext fun b => Fin.ext (by
    match b with
    | ⟨0, _⟩ => exact lhs_mmA_0 _ _
    | ⟨1, _⟩ => exact (lhs_mmA_1 _ _).trans hk)
  have er : dot_S16000x64_S64x128_S16000x128_1_0_0_1_n_n.rhsIdx (ix2 p k) ((contrEquiv1 dot_S16000x64_S64x128_S16000x128_1_0_0_1_n_n 64 rfl rfl).symm a) = ix2 a k := funext fun b => Fin.ext (by
    match b with
    | ⟨0, _⟩ => exact (rhs_mmA_0 _ _).trans hk
    | ⟨1, _⟩ => exact rhs_mmA_1 _ _)
  rw [el, er]

/-- The left operand's row of the product mmB is the output's row. -/
theorem lhs_mmB_0 (i : S16000x64.Idx) (q : dot_S16000x128_S128x64_S16000x64_1_0_0_1_n_n.contr.Idx) :
    (dot_S16000x128_S128x64_S16000x64_1_0_0_1_n_n.lhsIdx i q 0).val = (i 0).val := by
  unfold DotDims.lhsIdx
  rw [dif_neg (show ¬(0 : Fin S16000x128.rank) ∈ dot_S16000x128_S128x64_S16000x64_1_0_0_1_n_n.lhsBatch by decide), dif_pos (show (0 : Fin S16000x128.rank) ∈ dot_S16000x128_S128x64_S16000x64_1_0_0_1_n_n.lhsNonContracting by decide)]
  rfl
/-- The left operand's column is the summation index. -/
theorem lhs_mmB_1 (i : S16000x64.Idx) (q : dot_S16000x128_S128x64_S16000x64_1_0_0_1_n_n.contr.Idx) :
    (dot_S16000x128_S128x64_S16000x64_1_0_0_1_n_n.lhsIdx i q 1).val = (q ⟨0, by decide⟩).val :=
  dot_S16000x128_S128x64_S16000x64_1_0_0_1_n_n.lhsIdx_val_of_single rfl i q
/-- The right operand's row is the summation index. -/
theorem rhs_mmB_0 (i : S16000x64.Idx) (q : dot_S16000x128_S128x64_S16000x64_1_0_0_1_n_n.contr.Idx) :
    (dot_S16000x128_S128x64_S16000x64_1_0_0_1_n_n.rhsIdx i q 0).val = (q ⟨0, by decide⟩).val :=
  dot_S16000x128_S128x64_S16000x64_1_0_0_1_n_n.rhsIdx_val_of_single rfl i q
/-- The right operand's column is the output's column. -/
theorem rhs_mmB_1 (i : S16000x64.Idx) (q : dot_S16000x128_S128x64_S16000x64_1_0_0_1_n_n.contr.Idx) :
    (dot_S16000x128_S128x64_S16000x64_1_0_0_1_n_n.rhsIdx i q 1).val = (i 1).val := by
  unfold DotDims.rhsIdx
  rw [dif_neg (show ¬(1 : Fin S128x64.rank) ∈ dot_S16000x128_S128x64_S16000x64_1_0_0_1_n_n.rhsBatch by decide), dif_pos (show (1 : Fin S128x64.rank) ∈ dot_S16000x128_S128x64_S16000x64_1_0_0_1_n_n.rhsNonContracting by decide)]
  rfl

/-- A product into the zero array, at row `p` and column `k`: the sum over the 128 inner positions. -/
theorem mmB_apply (l : FVec Ideal S16000x128 .f32) (r : FVec Ideal S128x64 .f32) (p : Fin 16000) (k : Fin 64) :
    matmul dot_S16000x128_S128x64_S16000x64_1_0_0_1_n_n none l r (constant (F := Ideal) S16000x64 .f32 0x00000000#32) (ix2 p k)
      = ∑ a : Fin 128, l (ix2 p a) * r (ix2 a k) := by
  simp only [matmul]
  rw [Ideal.matmul_constant_zero_apply, ← Equiv.sum_comp (contrEquiv1 dot_S16000x128_S128x64_S16000x64_1_0_0_1_n_n 128 rfl rfl).symm]
  refine Finset.sum_congr rfl fun a _ => ?_
  have hk := contrEquiv1_symm_val dot_S16000x128_S128x64_S16000x64_1_0_0_1_n_n 128 rfl rfl a
  have el : dot_S16000x128_S128x64_S16000x64_1_0_0_1_n_n.lhsIdx (ix2 p k) ((contrEquiv1 dot_S16000x128_S128x64_S16000x64_1_0_0_1_n_n 128 rfl rfl).symm a) = ix2 p a := funext fun b => Fin.ext (by
    match b with
    | ⟨0, _⟩ => exact lhs_mmB_0 _ _
    | ⟨1, _⟩ => exact (lhs_mmB_1 _ _).trans hk)
  have er : dot_S16000x128_S128x64_S16000x64_1_0_0_1_n_n.rhsIdx (ix2 p k) ((contrEquiv1 dot_S16000x128_S128x64_S16000x64_1_0_0_1_n_n 128 rfl rfl).symm a) = ix2 a k := funext fun b => Fin.ext (by
    match b with
    | ⟨0, _⟩ => exact (rhs_mmB_0 _ _).trans hk
    | ⟨1, _⟩ => exact rhs_mmB_1 _ _)
  rw [el, er]

/-- The body's arithmetic at row `p` and column `q` of its block is the slab-by-slab edge perceptron of the nine loaded blocks. -/
theorem pay_apply (v0 v2 v4 : Vec Ideal S16000x64 .f32) (v5 v8 v12 : Vec Ideal S64x128 .f32) (v16 : Vec Ideal S1x128 .f32)
    (v22 : Vec Ideal S128x64 .f32) (v24 : Vec Ideal S1x64 .f32) (p : Fin 16000) (q : Fin 64) :
    k0_pay1 (F := Ideal) v0 v2 v4 v5 v8 v12 v16 v22 v24 (ix2 p q)
      = Cert.Spec.edgeK (E := 16000) v0 v2 v4 v5 v8 v12 v16 v22 v24 p q := by
  unfold k0_pay1 Cert.Spec.edgeK
  simp only [shapeCast_self]
  rw [addf_apply, mmB_apply, broadcastTo_1b_ab_apply]
  refine congrArg (· + _) (Finset.sum_congr rfl fun k _ => ?_)
  rw [maximumf_apply, addf_apply, addf_apply, addf_apply, mmA_apply, mmA_apply, mmA_apply, broadcastTo_1b_ab_apply, broadcast_apply]
  rfl

/-! ## From the blocks to the array -/

theorem zero_offsets : (![0, 0] : Fin 2 → Nat) = fun _ => 0 := funext fun a => by fin_cases a <;> rfl

/-- The body's arithmetic at any index of its block. -/
theorem pay_at (v0 v2 v4 : Vec Ideal S16000x64 .f32) (v5 v8 v12 : Vec Ideal S64x128 .f32) (v16 : Vec Ideal S1x128 .f32)
    (v22 : Vec Ideal S128x64 .f32) (v24 : Vec Ideal S1x64 .f32) (y : S16000x64.Idx) :
    k0_pay1 (F := Ideal) v0 v2 v4 v5 v8 v12 v16 v22 v24 y
      = Cert.Spec.edgeK (E := 16000) v0 v2 v4 v5 v8 v12 v16 v22 v24 (y 0) (y 1) := by
  obtain ⟨p, q, rfl⟩ : ∃ (p : Fin 16000) (q : Fin 64), y = ix2 p q := ⟨y 0, y 1, eq_ix2 y⟩
  exact pay_apply v0 v2 v4 v5 v8 v12 v16 v22 v24 p q

/-- The edge perceptron at a row reads only that row of the three row arrays: two triples of row arrays that agree on a
    pair of rows, with the same weights, give the same entry there. -/
theorem edgeK_congr {E E' : Nat} (xr xc ea : Cert.Spec.Arr2 E 64) (xr' xc' ea' : Cert.Spec.Arr2 E' 64)
    (wa wb wc wa' wb' wc' : Cert.Spec.Arr2 64 128) (b1 b1' : Cert.Spec.Arr2 1 128) (w2 w2' : Cert.Spec.Arr2 128 64)
    (b2 b2' : Cert.Spec.Arr2 1 64) (e : Fin E) (e' : Fin E') (j j' : Fin 64)
    (h0 : ∀ a : Fin 64, xr (ix2 e a) = xr' (ix2 e' a)) (h1 : ∀ a : Fin 64, xc (ix2 e a) = xc' (ix2 e' a))
    (h2 : ∀ a : Fin 64, ea (ix2 e a) = ea' (ix2 e' a))
    (h3 : wa = wa') (h4 : wb = wb') (h5 : wc = wc') (h6 : b1 = b1') (h7 : w2 = w2') (h8 : b2 = b2') (hj : j = j') :
    Cert.Spec.edgeK xr xc ea wa wb wc b1 w2 b2 e j = Cert.Spec.edgeK xr' xc' ea' wa' wb' wc' b1' w2' b2' e' j' := by
  subst h3 h4 h5 h6 h7 h8 hj
  unfold Cert.Spec.edgeK
  simp only [h0, h1, h2]

/-- The windows' index maps over the grid: the three row windows move with the output window along the rows, the six
    weight windows stay at block zero, and the output's block row is the point's number. -/
theorem idx_facts : ∀ t : Fin cfg0.N, win0_0.index t (0 : Fin 2) = win0_9.index t (0 : Fin 2)
    ∧ win0_0.index t (1 : Fin 2) = 0
    ∧ win0_1.index t (0 : Fin 2) = win0_9.index t (0 : Fin 2)
    ∧ win0_1.index t (1 : Fin 2) = 0
    ∧ win0_2.index t (0 : Fin 2) = win0_9.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

variable (V : (c : Dev nD) → (b : Ref sig .tc) → Buf (Elt Ideal) ((c : Thread nD τ).loc b))

/-- Row window 0's block at point `t` reads its array at the output block's row offset. -/
theorem rows_blk0 (c : Dev nD) (t : Fin cfg0.N) (y : S16000x64.Idx) (i : S800000x64.Idx)
    (h0 : (i 0).val = win0_9.index t (0 : Fin 2) * 16000 + (y 0).val) (h1 : (i 1).val = (y 1).val) :
    iblk0 V c 0 t y = V c main_v4 i := by
  obtain ⟨f0, f1, f2, f3, f4, f5, f6, f7, f8, f9, f10, f11, f12, f13, f14, f15, f16, f17, f18, f19⟩ := idx_facts t
  show V c main_v4 (((cfg0.win 0).blk t).view.emb y) = V c main_v4 i
  refine congrArg (V c main_v4) (funext fun b => Fin.ext ?_)
  match b with
  | ⟨0, _⟩ => show win0_0.index t (0 : Fin 2) * 16000 + 1 * (y 0).val = (i 0).val; omega
  | ⟨1, _⟩ => show win0_0.index t (1 : Fin 2) * 64 + 1 * (y 1).val = (i 1).val; omega

/-- Row window 1's block at point `t` reads its array at the output block's row offset. -/
theorem rows_blk1 (c : Dev nD) (t : Fin cfg0.N) (y : S16000x64.Idx) (i : S800000x64.Idx)
    (h0 : (i 0).val = win0_9.index t (0 : Fin 2) * 16000 + (y 0).val) (h1 : (i 1).val = (y 1).val) :
    iblk0 V c 1 t y = V c main_v5 i := by
  obtain ⟨f0, f1, f2, f3, f4, f5, f6, f7, f8, f9, f10, f11, f12, f13, f14, f15, f16, f17, f18, f19⟩ := idx_facts t
  show V c main_v5 (((cfg0.win 1).blk t).view.emb y) = V c main_v5 i
  refine congrArg (V c main_v5) (funext fun b => Fin.ext ?_)
  match b with
  | ⟨0, _⟩ => show win0_1.index t (0 : Fin 2) * 16000 + 1 * (y 0).val = (i 0).val; omega
  | ⟨1, _⟩ => show win0_1.index t (1 : Fin 2) * 64 + 1 * (y 1).val = (i 1).val; omega

/-- Row window 2's block at point `t` reads its array at the output block's row offset. -/
theorem rows_blk2 (c : Dev nD) (t : Fin cfg0.N) (y : S16000x64.Idx) (i : S800000x64.Idx)
    (h0 : (i 0).val = win0_9.index t (0 : Fin 2) * 16000 + (y 0).val) (h1 : (i 1).val = (y 1).val) :
    iblk0 V c 2 t y = V c main_arg2 i := by
  obtain ⟨f0, f1, f2, f3, f4, f5, f6, f7, f8, f9, f10, f11, f12, f13, f14, f15, f16, f17, f18, f19⟩ := idx_facts t
  show V c main_arg2 (((cfg0.win 2).blk t).view.emb y) = V c main_arg2 i
  refine congrArg (V c main_arg2) (funext fun b => Fin.ext ?_)
  match b with
  | ⟨0, _⟩ => show win0_2.index t (0 : Fin 2) * 16000 + 1 * (y 0).val = (i 0).val; omega
  | ⟨1, _⟩ => show win0_2.index t (1 : Fin 2) * 64 + 1 * (y 1).val = (i 1).val; omega

/-- Weight window 3's block at every point is its whole array. -/
theorem whole_blk3 (c : Dev nD) (t : Fin cfg0.N) : (iblk0 V c 3 t : S64x128.Idx → EReal) = V c main_v6 := by
  obtain ⟨f0, f1, f2, f3, f4, f5, f6, f7, f8, f9, f10, f11, f12, f13, f14, f15, f16, f17, f18, f19⟩ := idx_facts t
  funext y
  show V c main_v6 (((cfg0.win 3).blk t).view.emb y) = V c main_v6 y
  refine congrArg (V c main_v6) (funext fun b => Fin.ext ?_)
  match b with
  | ⟨0, _⟩ => show win0_3.index t (0 : Fin 2) * 64 + 1 * (y 0).val = (y 0).val; omega
  | ⟨1, _⟩ => show win0_3.index t (1 : Fin 2) * 128 + 1 * (y 1).val = (y 1).val; omega

/-- Weight window 4's block at every point is its whole array. -/
theorem whole_blk4 (c : Dev nD) (t : Fin cfg0.N) : (iblk0 V c 4 t : S64x128.Idx → EReal) = V c main_v7 := by
  obtain ⟨f0, f1, f2, f3, f4, f5, f6, f7, f8, f9, f10, f11, f12, f13, f14, f15, f16, f17, f18, f19⟩ := idx_facts t
  funext y
  show V c main_v7 (((cfg0.win 4).blk t).view.emb y) = V c main_v7 y
  refine congrArg (V c main_v7) (funext fun b => Fin.ext ?_)
  match b with
  | ⟨0, _⟩ => show win0_4.index t (0 : Fin 2) * 64 + 1 * (y 0).val = (y 0).val; omega
  | ⟨1, _⟩ => show win0_4.index t (1 : Fin 2) * 128 + 1 * (y 1).val = (y 1).val; omega

/-- Weight window 5's block at every point is its whole array. -/
theorem whole_blk5 (c : Dev nD) (t : Fin cfg0.N) : (iblk0 V c 5 t : S64x128.Idx → EReal) = V c main_v8 := by
  obtain ⟨f0, f1, f2, f3, f4, f5, f6, f7, f8, f9, f10, f11, f12, f13, f14, f15, f16, f17, f18, f19⟩ := idx_facts t
  funext y
  show V c main_v8 (((cfg0.win 5).blk t).view.emb y) = V c main_v8 y
  refine congrArg (V c main_v8) (funext fun b => Fin.ext ?_)
  match b with
  | ⟨0, _⟩ => show win0_5.index t (0 : Fin 2) * 64 + 1 * (y 0).val = (y 0).val; omega
  | ⟨1, _⟩ => show win0_5.index t (1 : Fin 2) * 128 + 1 * (y 1).val = (y 1).val; omega

/-- Weight window 6's block at every point is its whole array. -/
theorem whole_blk6 (c : Dev nD) (t : Fin cfg0.N) : (iblk0 V c 6 t : S1x128.Idx → EReal) = V c main_v11 := by
  obtain ⟨f0, f1, f2, f3, f4, f5, f6, f7, f8, f9, f10, f11, f12, f13, f14, f15, f16, f17, f18, f19⟩ := idx_facts t
  funext y
  show V c main_v11 (((cfg0.win 6).blk t).view.emb y) = V c main_v11 y
  refine congrArg (V c main_v11) (funext fun b => Fin.ext ?_)
  match b with
  | ⟨0, _⟩ => show win0_6.index t (0 : Fin 2) * 1 + 1 * (y 0).val = (y 0).val; omega
  | ⟨1, _⟩ => show win0_6.index t (1 : Fin 2) * 128 + 1 * (y 1).val = (y 1).val; omega

/-- Weight window 7's block at every point is its whole array. -/
theorem whole_blk7 (c : Dev nD) (t : Fin cfg0.N) : (iblk0 V c 7 t : S128x64.Idx → EReal) = V c main_arg5 := by
  obtain ⟨f0, f1, f2, f3, f4, f5, f6, f7, f8, f9, f10, f11, f12, f13, f14, f15, f16, f17, f18, f19⟩ := idx_facts t
  funext y
  show V c main_arg5 (((cfg0.win 7).blk t).view.emb y) = V c main_arg5 y
  refine congrArg (V c main_arg5) (funext fun b => Fin.ext ?_)
  match b with
  | ⟨0, _⟩ => show win0_7.index t (0 : Fin 2) * 128 + 1 * (y 0).val = (y 0).val; omega
  | ⟨1, _⟩ => show win0_7.index t (1 : Fin 2) * 64 + 1 * (y 1).val = (y 1).val; omega

/-- Weight window 8's block at every point is its whole array. -/
theorem whole_blk8 (c : Dev nD) (t : Fin cfg0.N) : (iblk0 V c 8 t : S1x64.Idx → EReal) = V c main_v12 := by
  obtain ⟨f0, f1, f2, f3, f4, f5, f6, f7, f8, f9, f10, f11, f12, f13, f14, f15, f16, f17, f18, f19⟩ := idx_facts t
  funext y
  show V c main_v12 (((cfg0.win 8).blk t).view.emb y) = V c main_v12 y
  refine congrArg (V c main_v12) (funext fun b => Fin.ext ?_)
  match b with
  | ⟨0, _⟩ => show win0_8.index t (0 : Fin 2) * 1 + 1 * (y 0).val = (y 0).val; omega
  | ⟨1, _⟩ => show win0_8.index t (1 : Fin 2) * 64 + 1 * (y 1).val = (y 1).val; omega

/-- What point `t` writes back is the body's arithmetic of the nine blocks at `t`. -/
theorem flushed_pay (c : Dev nD) (t : Fin cfg0.N) :
    (dat0 (F := Ideal) V c).flushed 9 t
      = (cfg0.win 9).cut (grid0.coords t) (k0_pay1 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) := by
  show (cfg0.win 9).cut (grid0.coords t) ((dat0 V c).after 9 t) = _
  rw [after0_9]
  unfold out0_9
  rw [View.canon_unit_zero zero_offsets]
  simp only [View.ld_unit_zero (S := S16000x64) zero_offsets, View.ld_unit_zero (S := S64x128) zero_offsets,
    View.ld_unit_zero (S := S1x128) zero_offsets, View.ld_unit_zero (S := S128x64) zero_offsets,
    View.ld_unit_zero (S := S1x64) zero_offsets]

/-- What point `t` writes back is block `t` of the edge perceptron of the arrays the region finds. -/
theorem flushed_eq (c : Dev nD) (t : Fin cfg0.N) :
    (dat0 (F := Ideal) V c).flushed 9 t
      = ((cfg0.win 9).blk t).view.read (Elt Ideal) (fun i => Cert.Spec.edgeK (V c main_v4) (V c main_v5) (V c main_arg2) (V c main_v6) (V c main_v7) (V c main_v8) (V c main_v11) (V c main_arg5) (V c main_v12) (i 0) (i 1)) := by
  rw [flushed_pay]
  funext j
  show k0_pay1 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) ((cfg0.win 9).xinj (grid0.coords t) j)
      = Cert.Spec.edgeK (V c main_v4) (V c main_v5) (V c main_arg2) (V c main_v6) (V c main_v7) (V c main_v8) (V c main_v11) (V c main_arg5) (V c main_v12) ((((cfg0.win 9).blk t).view.emb j) 0) ((((cfg0.win 9).blk t).view.emb j) 1)
  refine (pay_at _ _ _ _ _ _ _ _ _ _).trans ?_
  have hr : ∀ a : Fin 64, ((ix2 ((((cfg0.win 9).blk t).view.emb j) 0) a : S800000x64.Idx) 0).val
      = win0_9.index t (0 : Fin 2) * 16000 + ((ix2 (((cfg0.win 9).xinj (grid0.coords t) j) 0) a : S16000x64.Idx) 0).val := by
    intro a
    show win0_9.index t (0 : Fin 2) * 16000 + 1 * (j 0).val = win0_9.index t (0 : Fin 2) * 16000 + (j 0).val
    omega
  have hq : (((cfg0.win 9).xinj (grid0.coords t) j) 1 : Fin 64) = (((cfg0.win 9).blk t).view.emb j) 1 := by
    obtain ⟨f0, f1, f2, f3, f4, f5, f6, f7, f8, f9, f10, f11, f12, f13, f14, f15, f16, f17, f18, f19⟩ := idx_facts t
    exact Fin.ext (by show (j 1).val = win0_9.index t (1 : Fin 2) * 64 + 1 * (j 1).val; omega)
  exact edgeK_congr _ _ _ _ _ _ _ _ _ _ _ _ _ _ _ _ _ _ _ _ _ _
    (fun a => rows_blk0 V c t _ _ (hr a) rfl) (fun a => rows_blk1 V c t _ _ (hr a) rfl) (fun a => rows_blk2 V c t _ _ (hr a) rfl)
    (whole_blk3 V c t) (whole_blk4 V c t) (whole_blk5 V c t) (whole_blk6 V c t) (whole_blk7 V c t) (whole_blk8 V c t) hq

/-- An index of the array is in point `t`'s block iff each coordinate is in the block's range on its axis. -/
theorem mem_blk (t : Fin cfg0.N) (i : S800000x64.Idx) :
    i ∈ ((cfg0.win 9).blk t).view.set ↔ ∀ a : Fin 2, win0_9.index t a * S16000x64.size a ≤ (i a).val ∧ (i a).val < win0_9.index t a * S16000x64.size a + S16000x64.size a := by
  show i ∈ ((View.whole main_v15).slice (win0_9.rect t)).set ↔ _
  rw [View.set_slice_whole, Rect.mem_set_unit]
  exact Iff.rfl

/-- Every index of the array is in the block of the point numbered by its row divided by 16000. -/
theorem covered (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hN : (i 0).val / 16000 < cfg0.N := by show _ < grid0.N; rw [N_0]; omega
  obtain ⟨f0, f1, f2, f3, f4, f5, f6, f7, f8, f9, f10, f11, f12, f13, f14, f15, f16, f17, f18, f19⟩ := idx_facts ⟨(i 0).val / 16000, hN⟩
  refine ⟨⟨(i 0).val / 16000, hN⟩, flush0_9 _, ?_⟩
  rw [mem_blk]
  intro a
  match a with
  | ⟨0, _⟩ =>
    show win0_9.index ⟨(i 0).val / 16000, hN⟩ (0 : Fin 2) * 16000 ≤ (i 0).val ∧ (i 0).val < win0_9.index ⟨(i 0).val / 16000, hN⟩ (0 : Fin 2) * 16000 + 16000
    have e : win0_9.index ⟨(i 0).val / 16000, hN⟩ (0 : Fin 2) = (i 0).val / 16000 := f18
    omega
  | ⟨1, _⟩ =>
    show win0_9.index ⟨(i 0).val / 16000, hN⟩ (1 : Fin 2) * 64 ≤ (i 1).val ∧ (i 1).val < win0_9.index ⟨(i 0).val / 16000, hN⟩ (1 : Fin 2) * 64 + 64
    omega

/-- After the edge region, its output array is the slab-by-slab edge perceptron of the arrays the region finds. -/
theorem edge_final (c : Dev nD) :
    (dat0 (F := Ideal) V c).arrAt 9 cfg0.N
      = fun i => Cert.Spec.edgeK (V c main_v4) (V c main_v5) (V c main_arg2) (V c main_v6) (V c main_v7) (V c main_v8)
          (V c main_v11) (V c main_arg5) (V c main_v12) (i 0) (i 1) :=
  (dat0 V c).arrAt_eq_of_cover 9 _ (fun t _ => flushed_eq V c t) covered

end Cert.KernelIdeal.EdgeValue

end
-- ==== Proof.NodeValue.lean ====
/-
  The node region's value.  At row p and column q of a block of 10000 nodes the body computes the slab-by-slab node
  perceptron of the eight blocks it loads: the summed messages divided by the count (at least one, a one-column block
  repeated along the features), two products by 64×128 slabs added, the bias row, the rectifier, a product by the
  128×64 second matrix and the second bias row.  The three row windows move with the output window (block t is rows
  10000·t … 10000·t + 9999) and the five weight windows are whole arrays at every point, so what point t writes back is
  block t of ONE function of the arrays the region finds; the five blocks cover the array.
-/
import proofs.«403002_j19292993094376_4_alg».proof.Proof.Gen.KernelIdeal.Frame
import proofs.«403002_j19292993094376_4_alg».proof.Proof.Spec
import proofs.«403002_j19292993094376_4_alg».proof.Proof.HostTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue
open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The two products of the node stage, read at an index -/

/-- A one-column matrix repeated along the columns reads, at `(p, c)`, its entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_slab_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs_slab_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs_slab_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs_slab_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A block of 64 features times a 64-row slab of the first weight matrix, from zero: entry `(p, k)` is the sum over
    the 64 features. -/
theorem slab_product_apply (u : FVec Ideal S10000x64 .f32) (w : FVec Ideal S64x128 .f32) (p : Fin 10000) (k : Fin 128) :
    matmul dot_S10000x64_S64x128_S10000x128_1_0_0_1_n_n none u w (constant (F := Ideal) S10000x128 .f32 0x00000000#32) (ix2 p k)
      = ∑ a : Fin 64, u (ix2 p a) * w (ix2 a k) := by
  simp only [matmul]
  rw [Ideal.matmul_constant_zero_apply, ← Equiv.sum_comp (ValueIdx.contrEquiv1 dot_S10000x64_S64x128_S10000x128_1_0_0_1_n_n 64 rfl rfl).symm]
  refine Finset.sum_congr rfl fun a _ => ?_
  have ha := ValueIdx.contrEquiv1_symm_val dot_S10000x64_S64x128_S10000x128_1_0_0_1_n_n 64 rfl rfl a
  have el : dot_S10000x64_S64x128_S10000x128_1_0_0_1_n_n.lhsIdx (ix2 p k) ((ValueIdx.contrEquiv1 dot_S10000x64_S64x128_S10000x128_1_0_0_1_n_n 64 rfl rfl).symm a) = ix2 p a := funext fun x => Fin.ext (by
    match x with
    | ⟨0, _⟩ => exact lhs_slab_0 _ _
    | ⟨1, _⟩ => exact (lhs_slab_1 _ _).trans ha)
  have er : dot_S10000x64_S64x128_S10000x128_1_0_0_1_n_n.rhsIdx (ix2 p k) ((ValueIdx.contrEquiv1 dot_S10000x64_S64x128_S10000x128_1_0_0_1_n_n 64 rfl rfl).symm a) = ix2 a k := funext fun x => Fin.ext (by
    match x with
    | ⟨0, _⟩ => exact (rhs_slab_0 _ _).trans ha
    | ⟨1, _⟩ => exact rhs_slab_1 _ _)
  rw [el, er]

theorem lhs_second_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_second_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_second_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_second_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The 128 hidden features times the second weight matrix, from zero: entry `(p, j)` is the sum over the 128 hidden
    features. -/
theorem second_product_apply (u : FVec Ideal S10000x128 .f32) (w : FVec Ideal S128x64 .f32) (p : Fin 10000) (j : Fin 64) :
    matmul dot_S10000x128_S128x64_S10000x64_1_0_0_1_n_n none u w (constant (F := Ideal) S10000x64 .f32 0x00000000#32) (ix2 p j)
      = ∑ k : Fin 128, u (ix2 p k) * w (ix2 k j) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p j) ((ValueIdx.contrEquiv1 dot_S10000x128_S128x64_S10000x64_1_0_0_1_n_n 128 rfl rfl).symm k) = ix2 p k := funext fun x => Fin.ext (by
    match x with
    | ⟨0, _⟩ => exact lhs_second_0 _ _
    | ⟨1, _⟩ => exact (lhs_second_1 _ _).trans hk)
  have er : dot_S10000x128_S128x64_S10000x64_1_0_0_1_n_n.rhsIdx (ix2 p j) ((ValueIdx.contrEquiv1 dot_S10000x128_S128x64_S10000x64_1_0_0_1_n_n 128 rfl rfl).symm k) = ix2 k j := funext fun x => Fin.ext (by
    match x with
    | ⟨0, _⟩ => exact (rhs_second_0 _ _).trans hk
    | ⟨1, _⟩ => exact rhs_second_1 _ _)
  rw [el, er]

/-! ## The node region's payload at an index -/

/-- What the body stores, at row `p` and feature `j` of a block: the node perceptron of the blocks it loaded. -/
theorem payload_apply (v0 : Vec Ideal S10000x64 .f32) (v2 : Vec Ideal S10000x1 .f32) (v8 : Vec Ideal S10000x64 .f32)
    (v9 v12 : Vec Ideal S64x128 .f32) (v16 : Vec Ideal S1x128 .f32) (v22 : Vec Ideal S128x64 .f32)
    (v24 : Vec Ideal S1x64 .f32) (p : Fin 10000) (j : Fin 64) :
    k1_pay1 v0 v2 v8 v9 v12 v16 v22 v24 (ix2 p j) = Cert.Spec.nodeK (N := 10000) v8 v0 v2 v9 v12 v16 v22 v24 p j := by
  unfold k1_pay1 Cert.Spec.nodeK
  simp only [shapeCast_self, addf_apply, maximumf_apply, divf_apply, broadcast_apply, second_product_apply,
    slab_product_apply, broadcastTo_1b_ab_apply, broadcastTo_a1_ab_apply]
  rfl

/-! ## From the blocks to the array -/

/-- The node perceptron of the whole arrays the region finds, index by index. -/
abbrev nodeArr (c : Dev nD) : S50000x64.Idx → EReal := fun i =>
  Cert.Spec.nodeK (V c main_arg0) (V c main_v18) (V c main_v23) (V c main_v9) (V c main_v10)
    (V c main_v13) (V c main_arg9) (V c main_v14) (i 0) (i 1)

/-- Row `p` of a block of 10000 rows is row `r` of the array: where the three row arrays agree on those rows and the
    weights are the same, the perceptron of the block at `p` is the perceptron of the array at `r`. -/
theorem nodeK_of_rows (x agg : Cert.Spec.Arr2 50000 64) (cnt : Cert.Spec.Arr2 50000 1) (xb aggb : Cert.Spec.Arr2 10000 64)
    (cntb : Cert.Spec.Arr2 10000 1) (wa wb wa' wb' : Cert.Spec.Arr2 64 128) (b1 b1' : Cert.Spec.Arr2 1 128)
    (w2 w2' : Cert.Spec.Arr2 128 64) (b2 b2' : Cert.Spec.Arr2 1 64) (p : Fin 10000) (r : Fin 50000) (j : Fin 64)
    (hx : ∀ a : Fin 64, xb (ix2 p a) = x (ix2 r a)) (hagg : ∀ a : Fin 64, aggb (ix2 p a) = agg (ix2 r a))
    (hcnt : cntb (ix2 p (0 : Fin 1)) = cnt (ix2 r (0 : Fin 1)))
    (hwa : wa' = wa) (hwb : wb' = wb) (hb1 : b1' = b1) (hw2 : w2' = w2) (hb2 : b2' = b2) :
    Cert.Spec.nodeK xb aggb cntb wa' wb' b1' w2' b2' p j = Cert.Spec.nodeK x agg cnt wa wb b1 w2 b2 r j := by
  subst hwa hwb hb1 hw2 hb2
  unfold Cert.Spec.nodeK
  simp only [hx, hagg, hcnt]

theorem zero_offsets : (![0, 0] : Fin 2 → Nat) = fun _ => 0 := funext fun a => by fin_cases a <;> rfl

/-- The printed index maps, decided over the five grid points: the three row windows and the output window sit at block
    row `t`, the five weight windows at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem point_lt (t : Fin cfg1.N) : t.val < 5 := lt_of_lt_of_eq t.isLt N_1

/-- Row `p` of the node-feature block at point `t` is row `10000 t + p` of the node features. -/
theorem block_x_apply (c : Dev nD) (t : Fin cfg1.N) (p : Fin 10000) (a : Fin 64) (r : Fin 50000)
    (hr : r.val = t.val * 10000 + p.val) :
    (iblk1 V c 0 t : Vec Ideal S10000x64 .f32) (ix2 p a) = (V c main_arg0 : S50000x64.Idx → EReal) (ix2 r a) := by
  obtain ⟨e0, e1, -⟩ := index_facts t
  show V c main_arg0 (((cfg1.win 0).blk t).view.emb (ix2 p a)) = _
  refine congrArg _ (funext fun x => Fin.ext ?_)
  match x with
  | ⟨0, _⟩ => show win1_0.index t (0 : Fin 2) * 10000 + 1 * p.val = r.val; omega
  | ⟨1, _⟩ => show win1_0.index t (1 : Fin 2) * 64 + 1 * a.val = a.val; omega

/-- Row `p` of the block of summed messages at point `t` is row `10000 t + p` of the summed messages. -/
theorem block_agg_apply (c : Dev nD) (t : Fin cfg1.N) (p : Fin 10000) (a : Fin 64) (r : Fin 50000)
    (hr : r.val = t.val * 10000 + p.val) :
    (iblk1 V c 1 t : Vec Ideal S10000x64 .f32) (ix2 p a) = (V c main_v18 : S50000x64.Idx → EReal) (ix2 r a) := by
  obtain ⟨-, -, e0, e1, -⟩ := index_facts t
  show V c main_v18 (((cfg1.win 1).blk t).view.emb (ix2 p a)) = _
  refine congrArg _ (funext fun x => Fin.ext ?_)
  match x with
  | ⟨0, _⟩ => show win1_1.index t (0 : Fin 2) * 10000 + 1 * p.val = r.val; omega
  | ⟨1, _⟩ => show win1_1.index t (1 : Fin 2) * 64 + 1 * a.val = a.val; omega

/-- Row `p` of the block of counts at point `t` is row `10000 t + p` of the counts. -/
theorem block_cnt_apply (c : Dev nD) (t : Fin cfg1.N) (p : Fin 10000) (r : Fin 50000)
    (hr : r.val = t.val * 10000 + p.val) :
    (iblk1 V c 2 t : Vec Ideal S10000x1 .f32) (ix2 p (0 : Fin 1)) = (V c main_v23 : S50000x1.Idx → EReal) (ix2 r (0 : Fin 1)) := by
  obtain ⟨-, -, -, -, e0, e1, -⟩ := index_facts t
  show V c main_v23 (((cfg1.win 2).blk t).view.emb (ix2 p (0 : Fin 1))) = _
  refine congrArg _ (funext fun x => Fin.ext ?_)
  match x with
  | ⟨0, _⟩ => show win1_2.index t (0 : Fin 2) * 10000 + 1 * p.val = r.val; omega
  | ⟨1, _⟩ => show win1_2.index t (1 : Fin 2) * 1 + 1 * 0 = 0; omega

/-- The block of the first slab of the first weight matrix is the whole slab, at every point. -/
theorem block_wa_eq (c : Dev nD) (t : Fin cfg1.N) :
    (iblk1 V c 3 t : Vec Ideal S64x128 .f32) = (V c main_v9 : S64x128.Idx → EReal) := by
  obtain ⟨-, -, -, -, -, -, e0, e1, -⟩ := index_facts t
  funext y
  show V c main_v9 (((cfg1.win 3).blk t).view.emb y) = V c main_v9 y
  refine congrArg _ (funext fun x => Fin.ext ?_)
  match x with
  | ⟨0, _⟩ => show win1_3.index t (0 : Fin 2) * 64 + 1 * (y 0).val = (y 0).val; omega
  | ⟨1, _⟩ => show win1_3.index t (1 : Fin 2) * 128 + 1 * (y 1).val = (y 1).val; omega

/-- The block of the second slab of the first weight matrix is the whole slab, at every point. -/
theorem block_wb_eq (c : Dev nD) (t : Fin cfg1.N) :
    (iblk1 V c 4 t : Vec Ideal S64x128 .f32) = (V c main_v10 : S64x128.Idx → EReal) := by
  obtain ⟨-, -, -, -, -, -, -, -, e0, e1, -⟩ := index_facts t
  funext y
  show V c main_v10 (((cfg1.win 4).blk t).view.emb y) = V c main_v10 y
  refine congrArg _ (funext fun x => Fin.ext ?_)
  match x with
  | ⟨0, _⟩ => show win1_4.index t (0 : Fin 2) * 64 + 1 * (y 0).val = (y 0).val; omega
  | ⟨1, _⟩ => show win1_4.index t (1 : Fin 2) * 128 + 1 * (y 1).val = (y 1).val; omega

/-- The block of the first bias row is the whole row, at every point. -/
theorem block_b1_eq (c : Dev nD) (t : Fin cfg1.N) :
    (iblk1 V c 5 t : Vec Ideal S1x128 .f32) = (V c main_v13 : S1x128.Idx → EReal) := by
  obtain ⟨-, -, -, -, -, -, -, -, -, -, e0, e1, -⟩ := index_facts t
  funext y
  show V c main_v13 (((cfg1.win 5).blk t).view.emb y) = V c main_v13 y
  refine congrArg _ (funext fun x => Fin.ext ?_)
  match x with
  | ⟨0, _⟩ => show win1_5.index t (0 : Fin 2) * 1 + 1 * (y 0).val = (y 0).val; omega
  | ⟨1, _⟩ => show win1_5.index t (1 : Fin 2) * 128 + 1 * (y 1).val = (y 1).val; omega

/-- The block of the second weight matrix is the whole matrix, at every point. -/
theorem block_w2_eq (c : Dev nD) (t : Fin cfg1.N) :
    (iblk1 V c 6 t : Vec Ideal S128x64 .f32) = (V c main_arg9 : S128x64.Idx → EReal) := by
  obtain ⟨-, -, -, -, -, -, -, -, -, -, -, -, e0, e1, -⟩ := index_facts t
  funext y
  show V c main_arg9 (((cfg1.win 6).blk t).view.emb y) = V c main_arg9 y
  refine congrArg _ (funext fun x => Fin.ext ?_)
  match x with
  | ⟨0, _⟩ => show win1_6.index t (0 : Fin 2) * 128 + 1 * (y 0).val = (y 0).val; omega
  | ⟨1, _⟩ => show win1_6.index t (1 : Fin 2) * 64 + 1 * (y 1).val = (y 1).val; omega

/-- The block of the second bias row is the whole row, at every point. -/
theorem block_b2_eq (c : Dev nD) (t : Fin cfg1.N) :
    (iblk1 V c 7 t : Vec Ideal S1x64 .f32) = (V c main_v14 : S1x64.Idx → EReal) := by
  obtain ⟨-, -, -, -, -, -, -, -, -, -, -, -, -, -, e0, e1, -⟩ := index_facts t
  funext y
  show V c main_v14 (((cfg1.win 7).blk t).view.emb y) = V c main_v14 y
  refine congrArg _ (funext fun x => Fin.ext ?_)
  match x with
  | ⟨0, _⟩ => show win1_7.index t (0 : Fin 2) * 1 + 1 * (y 0).val = (y 0).val; omega
  | ⟨1, _⟩ => show win1_7.index t (1 : Fin 2) * 64 + 1 * (y 1).val = (y 1).val; omega

/-- What point `t` writes back is block `t` of the node perceptron of the whole arrays. -/
theorem flushed_eq (c : Dev nD) (t : Fin cfg1.N) :
    (dat1 (F := Ideal) V c).flushed 8 t = ((cfg1.win 8).blk t).view.read (Elt Ideal) (nodeArr V c) := by
  show (cfg1.win 8).cut (grid1.coords t) ((dat1 (F := Ideal) V c).after 8 t) = _
  rw [after1_8]
  unfold out1_8
  rw [View.canon_unit_zero zero_offsets]
  simp only [View.ld_unit_zero (S := S10000x64) zero_offsets, View.ld_unit_zero (S := S10000x1) zero_offsets,
    View.ld_unit_zero (S := S64x128) zero_offsets, View.ld_unit_zero (S := S1x128) zero_offsets,
    View.ld_unit_zero (S := S128x64) zero_offsets, View.ld_unit_zero (S := S1x64) zero_offsets]
  funext y
  obtain ⟨p, q, rfl⟩ : ∃ (p : Fin 10000) (q : Fin 64), y = ix2 p q := ⟨y 0, y 1, eq_ix2 y⟩
  have ht := point_lt t
  have hp := p.isLt
  obtain ⟨-, -, -, -, -, -, -, -, -, -, -, -, -, -, -, -, e0, e1⟩ := index_facts t
  have he : ((cfg1.win 8).blk t).view.emb (ix2 p q) = ix2 (⟨t.val * 10000 + p.val, by omega⟩ : Fin 50000) q :=
    funext fun x => Fin.ext (by
      match x with
      | ⟨0, _⟩ => show win1_8.index t (0 : Fin 2) * 10000 + 1 * p.val = t.val * 10000 + p.val; omega
      | ⟨1, _⟩ => show win1_8.index t (1 : Fin 2) * 64 + 1 * q.val = q.val; omega)
  show k1_pay1 (iblk1 V c 1 t) (iblk1 V c 2 t) (iblk1 V c 0 t) (iblk1 V c 3 t) (iblk1 V c 4 t) (iblk1 V c 5 t)
      (iblk1 V c 6 t) (iblk1 V c 7 t) (ix2 p q) = nodeArr V c (((cfg1.win 8).blk t).view.emb (ix2 p q))
  refine (payload_apply (iblk1 V c 1 t) (iblk1 V c 2 t) (iblk1 V c 0 t) (iblk1 V c 3 t) (iblk1 V c 4 t) (iblk1 V c 5 t)
      (iblk1 V c 6 t) (iblk1 V c 7 t) p q).trans ?_
  refine Eq.trans ?_ (congrArg (nodeArr V c) he.symm)
  exact nodeK_of_rows (V c main_arg0) (V c main_v18) (V c main_v23) (iblk1 V c 0 t) (iblk1 V c 1 t) (iblk1 V c 2 t)
    (V c main_v9) (V c main_v10) (iblk1 V c 3 t) (iblk1 V c 4 t) (V c main_v13) (iblk1 V c 5 t) (V c main_arg9)
    (iblk1 V c 6 t) (V c main_v14) (iblk1 V c 7 t) p ⟨t.val * 10000 + p.val, by omega⟩ q
    (fun a => block_x_apply V c t p a _ rfl) (fun a => block_agg_apply V c t p a _ rfl) (block_cnt_apply V c t p _ rfl)
    (block_wa_eq V c t) (block_wb_eq V c t) (block_b1_eq V c t) (block_w2_eq V c t) (block_b2_eq V c t)

/-- An index of the array is in point `t`'s block iff each coordinate is in the block's range on its axis. -/
theorem mem_block (t : Fin cfg1.N) (i : S50000x64.Idx) :
    i ∈ ((cfg1.win 8).blk t).view.set ↔ ∀ a : Fin 2, win1_8.index t a * S10000x64.size a ≤ (i a).val
      ∧ (i a).val < win1_8.index t a * S10000x64.size a + S10000x64.size a := by
  show i ∈ ((View.whole main_v24).slice (win1_8.rect t)).set ↔ _
  rw [View.set_slice_whole, Rect.mem_set_unit]
  exact Iff.rfl

/-- Row `r` of the array is in the block of point `r / 10000`, which writes back. -/
theorem covered (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  have hlt : (i 0).val / 10000 < cfg1.N := lt_of_lt_of_eq (by omega : (i 0).val / 10000 < 5) N_1.symm
  obtain ⟨-, -, -, -, -, -, -, -, -, -, -, -, -, -, -, -, e0, e1⟩ := index_facts ⟨(i 0).val / 10000, hlt⟩
  refine ⟨⟨(i 0).val / 10000, hlt⟩, flush1_8 _, ?_⟩
  rw [mem_block]
  intro a
  match a with
  | ⟨0, _⟩ =>
    show win1_8.index ⟨(i 0).val / 10000, hlt⟩ (0 : Fin 2) * 10000 ≤ (i 0).val
      ∧ (i 0).val < win1_8.index ⟨(i 0).val / 10000, hlt⟩ (0 : Fin 2) * 10000 + 10000
    have e0' : win1_8.index ⟨(i 0).val / 10000, hlt⟩ (0 : Fin 2) = (i 0).val / 10000 := e0
    omega
  | ⟨1, _⟩ =>
    show win1_8.index ⟨(i 0).val / 10000, hlt⟩ (1 : Fin 2) * 64 ≤ (i 1).val
      ∧ (i 1).val < win1_8.index ⟨(i 0).val / 10000, hlt⟩ (1 : Fin 2) * 64 + 64
    omega

/-- After the node region, its output array is the slab-by-slab node perceptron of the arrays the region finds. -/
theorem node_final (c : Dev nD) :
    (dat1 (F := Ideal) V c).arrAt 8 cfg1.N
      = fun i => Cert.Spec.nodeK (V c main_arg0) (V c main_v18) (V c main_v23) (V c main_v9) (V c main_v10)
          (V c main_v13) (V c main_arg9) (V c main_v14) (i 0) (i 1) :=
  (dat1 (F := Ideal) V c).arrAt_eq_of_cover 8 (nodeArr V c) (fun t _ => flushed_eq V c t) covered

end Cert.KernelIdeal.NodeValue

end
-- ==== Proof.HostValues.lean ====
/-
  The host operations between the launch and each kernel region, read back: every array a region finds is a named
  function of the program's arguments (and, for the summed messages, of what the edge region left).  A buffer that
  no operation of a stretch writes holds after the stretch what it held before; a buffer the stretch writes holds
  the operations' composed term of the buffers they read.
-/
import proofs.«403002_j19292993094376_4_alg».proof.Proof.Gen.KernelIdeal.Frame
import proofs.«403002_j19292993094376_4_alg».proof.Proof.Spec
import proofs.«403002_j19292993094376_4_alg».proof.Proof.HostTerms
import Idealize.ShloMosaic.Lib.Pipeline.Value
import Idealize.ShloMosaic.Lib.ValueIdx
import Idealize.ShloMosaic.PureOps.Ideal.Laws

set_option maxRecDepth 16384

noncomputable section

namespace Cert.KernelIdeal.HostValues
open Cert.KernelIdeal Cert.KernelIdeal.Gen Idealize.ShloMosaic Idealize.ShloMosaic.TcCoe Idealize.SL.Sem
open Idealize.ShloMosaic.Pipeline (Dat Cfg Window)
open Idealize.ShloMosaic.ValueIdx

open Cert.KernelIdeal.HostTerms

/-! ## The two lookups, from any contents -/

section Generic
variable {F : FTy → Type} [FloatOps F]

/-- Reading a typed reference's buffer back at the value's type undoes storing it there. -/
theorem ofBuf_toBuf {T : BufTy} (x : StableHlo.TRef sig T) (v : T.Contents (Elt F)) : x.ofBuf (x.toBuf v) = v := by
  obtain ⟨r, h, d, u⟩ := x
  subst h
  rfl

/-- At a literal reference the transport between the buffer's type and the value's type is the identity. -/
theorem ofBuf_v1 (w : (main_v1 : Ref sig .tc).ty.Contents (Elt F)) :
    (StableHlo.TRef.of main_v1 : StableHlo.TRef sig ⟨S800000, .i32⟩).ofBuf w = w := rfl
theorem ofBuf_v3 (w : (main_v3 : Ref sig .tc).ty.Contents (Elt F)) :
    (StableHlo.TRef.of main_v3 : StableHlo.TRef sig ⟨S800000, .i32⟩).ofBuf w = w := rfl
theorem ofBuf_arg0 (w : (main_arg0 : Ref sig .tc).ty.Contents (Elt F)) :
    (StableHlo.TRef.of main_arg0 : StableHlo.TRef sig ⟨S50000x64, .f32⟩).ofBuf w = w := rfl
theorem toBuf_v4 (w : (⟨S800000x64, .f32⟩ : BufTy).Contents (Elt F)) :
    (StableHlo.TRef.of main_v4 : StableHlo.TRef sig ⟨S800000x64, .f32⟩).toBuf w = w := rfl
theorem toBuf_v5 (w : (⟨S800000x64, .f32⟩ : BufTy).Contents (Elt F)) :
    (StableHlo.TRef.of main_v5 : StableHlo.TRef sig ⟨S800000x64, .f32⟩).toBuf w = w := rfl

/-- The first lookup, from any contents: the filled lookup of the table at `main_arg0` by the indices at `main_v1`. -/
theorem take0 (V : Valuation τ sig (Elt F)) :
    StableHlo.after hostOps0_1 V (Proc.devRef .tc main_v4)
      = takeFill (F := F) (V (Proc.devRef .tc main_arg0)) (V (Proc.devRef .tc main_v1)) := by
  dsimp only [hostOps0_1]
  after_results_simp
  simp only [ofBuf_toBuf, ofBuf_v1, ofBuf_arg0, toBuf_v4]
  unfold takeFill gatherRows inRange wrapIdx
  rfl

/-- The second lookup, from any contents: the same table by the indices at `main_v3`. -/
theorem take1 (V : Valuation τ sig (Elt F)) :
    StableHlo.after hostOps0_2 V (Proc.devRef .tc main_v5)
      = takeFill (F := F) (V (Proc.devRef .tc main_arg0)) (V (Proc.devRef .tc main_v3)) := by
  dsimp only [hostOps0_2]
  after_results_simp
  simp only [ofBuf_toBuf, ofBuf_v3, ofBuf_arg0, toBuf_v5]
  unfold takeFill gatherRows inRange wrapIdx
  rfl

end Generic

variable (m : (ℓ : Loc nD τ sig) → Buf (Elt Ideal) ℓ) (ρ : Dev nD → PrngReg)

/-- No operation of the stretch in the goal writes the buffer in the goal. -/
local macro "unwritten" : tactic => `(tactic| (
  refine List.forall_iff_forall_mem.mp ?_
  simp only [hostOps0, hostOps0_1, hostOps0_2, hostOps0_3, hostOps1, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

/-- A buffer that none of the three stretches between the first one and the edge region writes holds, at that
    region's entry, what the first stretch left. -/
theorem W4_eq_W1 (c : Dev nD) (b : Ref sig .tc)
    (h3 : ∀ op ∈ (hostOps0_3 : List (HloOp τ sig (Elt Ideal))), Proc.devRef .tc b ∉ op.writes)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes) :
    W4 m ρ c (Proc.devRef .tc b) = W1 m ρ c (Proc.devRef .tc b) :=
  calc W4 m ρ c (Proc.devRef .tc b)
    _ = W3 m ρ c (Proc.devRef .tc b) := StableHlo.after_of_forall_not_mem (b := Proc.devRef .tc b) hostOps0_3 _ h3
    _ = W2 m ρ c (Proc.devRef .tc b) := StableHlo.after_of_forall_not_mem (b := Proc.devRef .tc b) hostOps0_2 _ h2
    _ = W1 m ρ c (Proc.devRef .tc b) := StableHlo.after_of_forall_not_mem (b := Proc.devRef .tc b) hostOps0_1 _ h1

/-- A buffer no host operation before the edge region's last stretch writes holds there what was launched. -/
theorem W3_eq_W0 (c : Dev nD) (b : Ref sig .tc)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W3 m ρ c (Proc.devRef .tc b) = W0 m ρ c (Proc.devRef .tc b) :=
  calc W3 m ρ c (Proc.devRef .tc b)
    _ = W2 m ρ c (Proc.devRef .tc b) := StableHlo.after_of_forall_not_mem (b := Proc.devRef .tc b) hostOps0_2 _ h2
    _ = W1 m ρ c (Proc.devRef .tc b) := StableHlo.after_of_forall_not_mem (b := Proc.devRef .tc b) hostOps0_1 _ h1
    _ = W0 m ρ c (Proc.devRef .tc b) := StableHlo.after_of_forall_not_mem (b := Proc.devRef .tc b) hostOps0 _ h0

/-- The second index row of the edge list, as the first stretch leaves it. -/
theorem W1_v3 (c : Dev nD) : W1 m ρ c (Proc.devRef .tc main_v3) = idxCol (m ((c.tc : Thread nD τ).loc main_arg1)) := by
  show StableHlo.after hostOps0 (W0 m ρ c) (Proc.devRef .tc main_v3) = _
  dsimp only [hostOps0]
  after_results
  rfl

/-- It is still there when the edge region has run. -/
theorem W5_v3 (c : Dev nD) : W5 m ρ c (Proc.devRef .tc main_v3) = idxCol (m ((c.tc : Thread nD τ).loc main_arg1)) :=
  calc W5 m ρ c (Proc.devRef .tc main_v3)
    _ = W4 m ρ c (Proc.devRef .tc main_v3) := W5_of_ne m ρ c main_v3 (by decide)
    _ = W1 m ρ c (Proc.devRef .tc main_v3) := W4_eq_W1 m ρ c main_v3 (by unwritten) (by unwritten) (by unwritten)
    _ = _ := W1_v3 m ρ c

/-! ## What the edge region finds -/
/-- After the two rows of the edge list are cut out: the table as launched, and the two rows. -/
theorem W1_arg0 (c : Dev nD) : W1 m ρ c (Proc.devRef .tc main_arg0) = m ((c.tc : Thread nD τ).loc main_arg0) :=
  StableHlo.after_of_forall_not_mem (b := Proc.devRef .tc main_arg0) hostOps0 _ (by unwritten)
theorem W1_v1 (c : Dev nD) : W1 m ρ c (Proc.devRef .tc main_v1) = idxRow (m ((c.tc : Thread nD τ).loc main_arg1)) := by
  show StableHlo.after hostOps0 (W0 m ρ c) (Proc.devRef .tc main_v1) = _
  dsimp only [hostOps0]
  after_results
  rfl
/-- The first lookup writes neither the table nor the second row. -/
theorem W2_arg0 (c : Dev nD) : W2 m ρ c (Proc.devRef .tc main_arg0) = m ((c.tc : Thread nD τ).loc main_arg0) :=
  (StableHlo.after_of_forall_not_mem (b := Proc.devRef .tc main_arg0) hostOps0_1 _ (by unwritten)).trans (W1_arg0 m ρ c)
theorem W2_v3 (c : Dev nD) : W2 m ρ c (Proc.devRef .tc main_v3) = idxCol (m ((c.tc : Thread nD τ).loc main_arg1)) :=
  (StableHlo.after_of_forall_not_mem (b := Proc.devRef .tc main_v3) hostOps0_1 _ (by unwritten)).trans (W1_v3 m ρ c)

theorem V4_v4 (c : Dev nD) : V4 m ρ c main_v4 = takeFill (F := Ideal) (m ((c.tc : Thread nD τ).loc main_arg0)) (idxRow (m ((c.tc : Thread nD τ).loc main_arg1))) :=
  calc V4 m ρ c main_v4
    _ = W3 m ρ c (Proc.devRef .tc main_v4) := StableHlo.after_of_forall_not_mem (b := Proc.devRef .tc main_v4) hostOps0_3 _ (by unwritten)
    _ = W2 m ρ c (Proc.devRef .tc main_v4) := StableHlo.after_of_forall_not_mem (b := Proc.devRef .tc main_v4) hostOps0_2 _ (by unwritten)
    _ = takeFill (F := Ideal) (W1 m ρ c (Proc.devRef .tc main_arg0)) (W1 m ρ c (Proc.devRef .tc main_v1)) := take0 (W1 m ρ c)
    _ = _ := by rw [W1_arg0, W1_v1]
theorem V4_v5 (c : Dev nD) : V4 m ρ c main_v5 = takeFill (F := Ideal) (m ((c.tc : Thread nD τ).loc main_arg0)) (idxCol (m ((c.tc : Thread nD τ).loc main_arg1))) :=
  calc V4 m ρ c main_v5
    _ = W3 m ρ c (Proc.devRef .tc main_v5) := StableHlo.after_of_forall_not_mem (b := Proc.devRef .tc main_v5) hostOps0_3 _ (by unwritten)
    _ = takeFill (F := Ideal) (W2 m ρ c (Proc.devRef .tc main_arg0)) (W2 m ρ c (Proc.devRef .tc main_v3)) := take1 (W2 m ρ c)
    _ = _ := by rw [W2_arg0, W2_v3]

theorem V4_arg2 (c : Dev nD) : V4 m ρ c main_arg2 = (m ((c.tc : Thread nD τ).loc main_arg2)) :=
  calc W4 m ρ c (Proc.devRef .tc main_arg2)
    _ = W3 m ρ c (Proc.devRef .tc main_arg2) := StableHlo.after_of_forall_not_mem (b := Proc.devRef .tc main_arg2) hostOps0_3 _ (by unwritten)
    _ = W0 m ρ c (Proc.devRef .tc main_arg2) := W3_eq_W0 m ρ c main_arg2 (by unwritten) (by unwritten) (by unwritten)
    _ = _ := rfl

theorem V4_arg5 (c : Dev nD) : V4 m ρ c main_arg5 = (m ((c.tc : Thread nD τ).loc main_arg5)) :=
  calc W4 m ρ c (Proc.devRef .tc main_arg5)
    _ = W3 m ρ c (Proc.devRef .tc main_arg5) := StableHlo.after_of_forall_not_mem (b := Proc.devRef .tc main_arg5) hostOps0_3 _ (by unwritten)
    _ = W0 m ρ c (Proc.devRef .tc main_arg5) := W3_eq_W0 m ρ c main_arg5 (by unwritten) (by unwritten) (by unwritten)
    _ = _ := rfl

theorem V4_v6 (c : Dev nD) : V4 m ρ c main_v6 = extractStridedSlice S64x128 ![0, 0] (m ((c.tc : Thread nD τ).loc main_arg3)) slices_S192x128_S64x128_0_0 := by
  show StableHlo.after hostOps0_3 (W3 m ρ c) (Proc.devRef .tc main_v6) = _
  dsimp only [hostOps0_3]
  after_results

theorem V4_v7 (c : Dev nD) : V4 m ρ c main_v7 = extractStridedSlice S64x128 ![64, 0] (m ((c.tc : Thread nD τ).loc main_arg3)) slices_S192x128_S64x128_64_0 := by
  show StableHlo.after hostOps0_3 (W3 m ρ c) (Proc.devRef .tc main_v7) = _
  dsimp only [hostOps0_3]
  after_results

theorem V4_v8 (c : Dev nD) : V4 m ρ c main_v8 = extractStridedSlice S64x128 ![128, 0] (m ((c.tc : Thread nD τ).loc main_arg3)) slices_S192x128_S64x128_128_0 := by
  show StableHlo.after hostOps0_3 (W3 m ρ c) (Proc.devRef .tc main_v8) = _
  dsimp only [hostOps0_3]
  after_results

theorem V4_v11 (c : Dev nD) : V4 m ρ c main_v11 = shapeCast S1x128 (m ((c.tc : Thread nD τ).loc main_arg4)) shapeCasts_S128_S1x128 := by
  show StableHlo.after hostOps0_3 (W3 m ρ c) (Proc.devRef .tc main_v11) = _
  dsimp only [hostOps0_3]
  after_results
  rfl

theorem V4_v12 (c : Dev nD) : V4 m ρ c main_v12 = shapeCast S1x64 (m ((c.tc : Thread nD τ).loc main_arg6)) shapeCasts_S64_S1x64 := by
  show StableHlo.after hostOps0_3 (W3 m ρ c) (Proc.devRef .tc main_v12) = _
  dsimp only [hostOps0_3]
  after_results
  rfl

/-! ## What the node region finds -/

/-- What the last stretch before the edge region wrote is untouched by that region and by the stretch after it. -/
theorem W6_eq_W4 (c : Dev nD) (b : Ref sig .tc)
    (h : ∀ op ∈ (hostOps1 : List (HloOp τ sig (Elt Ideal))), Proc.devRef .tc b ∉ op.writes)
    (hb : ∀ w, Pipeline.arrRef spec0 w ≠ b) :
    W6 m ρ c (Proc.devRef .tc b) = W4 m ρ c (Proc.devRef .tc b) :=
  (StableHlo.after_of_forall_not_mem (b := Proc.devRef .tc b) hostOps1 _ h).trans (W5_of_ne m ρ c b hb)

theorem V6_arg0 (c : Dev nD) : V6 m ρ c main_arg0 = (m ((c.tc : Thread nD τ).loc main_arg0)) :=
  calc W6 m ρ c (Proc.devRef .tc main_arg0)
    _ = W4 m ρ c (Proc.devRef .tc main_arg0) := W6_eq_W4 m ρ c main_arg0 (by unwritten) (by decide)
    _ = W3 m ρ c (Proc.devRef .tc main_arg0) := StableHlo.after_of_forall_not_mem (b := Proc.devRef .tc main_arg0) hostOps0_3 _ (by unwritten)
    _ = W0 m ρ c (Proc.devRef .tc main_arg0) := W3_eq_W0 m ρ c main_arg0 (by unwritten) (by unwritten) (by unwritten)
    _ = _ := rfl

theorem V6_arg9 (c : Dev nD) : V6 m ρ c main_arg9 = (m ((c.tc : Thread nD τ).loc main_arg9)) :=
  calc W6 m ρ c (Proc.devRef .tc main_arg9)
    _ = W4 m ρ c (Proc.devRef .tc main_arg9) := W6_eq_W4 m ρ c main_arg9 (by unwritten) (by decide)
    _ = W3 m ρ c (Proc.devRef .tc main_arg9) := StableHlo.after_of_forall_not_mem (b := Proc.devRef .tc main_arg9) hostOps0_3 _ (by unwritten)
    _ = W0 m ρ c (Proc.devRef .tc main_arg9) := W3_eq_W0 m ρ c main_arg9 (by unwritten) (by unwritten) (by unwritten)
    _ = _ := rfl

theorem V6_v18 (c : Dev nD) : V6 m ρ c main_v18 = aggSum (F := Ideal) (m ((c.tc : Thread nD τ).loc main_arg1)) ((dat0 (F := Ideal) (V4 m ρ) c).arrAt 9 cfg0.N) := by
  show StableHlo.after hostOps1 (W5 m ρ c) (Proc.devRef .tc main_v18) = _
  dsimp only [hostOps1]
  after_results
  rw [W5_v3, W5_arr m ρ c 9]
  rfl

theorem V6_v23 (c : Dev nD) : V6 m ρ c main_v23 = shapeCast S50000x1 (cntSum (F := Ideal) (m ((c.tc : Thread nD τ).loc main_arg1))) shapeCasts_S50000_S50000x1 := by
  show StableHlo.after hostOps1 (W5 m ρ c) (Proc.devRef .tc main_v23) = _
  dsimp only [hostOps1]
  after_results
  rw [W5_v3]
  rfl

theorem V6_v9 (c : Dev nD) : V6 m ρ c main_v9 = extractStridedSlice S64x128 ![0, 0] (m ((c.tc : Thread nD τ).loc main_arg7)) slices_S128x128_S64x128_0_0 := by
  show W6 m ρ c (Proc.devRef .tc main_v9) = _
  rw [W6_eq_W4 m ρ c main_v9 (by unwritten) (by decide)]
  show StableHlo.after hostOps0_3 (W3 m ρ c) (Proc.devRef .tc main_v9) = _
  dsimp only [hostOps0_3]
  after_results

theorem V6_v10 (c : Dev nD) : V6 m ρ c main_v10 = extractStridedSlice S64x128 ![64, 0] (m ((c.tc : Thread nD τ).loc main_arg7)) slices_S128x128_S64x128_64_0 := by
  show W6 m ρ c (Proc.devRef .tc main_v10) = _
  rw [W6_eq_W4 m ρ c main_v10 (by unwritten) (by decide)]
  show StableHlo.after hostOps0_3 (W3 m ρ c) (Proc.devRef .tc main_v10) = _
  dsimp only [hostOps0_3]
  after_results

theorem V6_v13 (c : Dev nD) : V6 m ρ c main_v13 = shapeCast S1x128 (m ((c.tc : Thread nD τ).loc main_arg8)) shapeCasts_S128_S1x128 := by
  show W6 m ρ c (Proc.devRef .tc main_v13) = _
  rw [W6_eq_W4 m ρ c main_v13 (by unwritten) (by decide)]
  show StableHlo.after hostOps0_3 (W3 m ρ c) (Proc.devRef .tc main_v13) = _
  dsimp only [hostOps0_3]
  after_results
  rfl

theorem V6_v14 (c : Dev nD) : V6 m ρ c main_v14 = shapeCast S1x64 (m ((c.tc : Thread nD τ).loc main_arg10)) shapeCasts_S64_S1x64 := by
  show W6 m ρ c (Proc.devRef .tc main_v14) = _
  rw [W6_eq_W4 m ρ c main_v14 (by unwritten) (by decide)]
  show StableHlo.after hostOps0_3 (W3 m ρ c) (Proc.devRef .tc main_v14) = _
  dsimp only [hostOps0_3]
  after_results
  rfl

end Cert.KernelIdeal.HostValues

end
-- ==== Proof.IndexRange.lean ====
/-
  The edge list's range.  The precondition's last conjunct says every entry e of the edge list satisfies
  −50000 ≤ e < 50000.  Such a word, moved by +50000 when negative, lies in [0, 49999] (no wrap-around at 32 bits), so
  the range test of the filling lookup is 1 at every edge and the filling lookup is the lookup itself.
-/
import proofs.«403002_j19292993094376_4_alg».proof.Pre_finite_inputs
import proofs.«403002_j19292993094376_4_alg».proof.Proof.Gen.Pre_finite_inputs
import proofs.«403002_j19292993094376_4_alg».proof.Proof.HostTerms
import Idealize.ShloMosaic.PureOps.Ideal
import Idealize.ShloMosaic.Lib.Affine
import Idealize.ShloMosaic.Lib.ReduceAll
import Idealize.ShloMosaic.Lib.StableHlo.Predicate
import Idealize.ShloMosaic.Lib.ValueIdx

noncomputable section

namespace Cert.IndexRange

open Idealize.ShloMosaic Cert.KernelIdeal Cert.KernelIdeal.HostTerms

/-- Every entry of the edge list is a row number of the 50000-row node table, counted from the start or,
    when negative, from the end. -/
def InRange (ei : IVec S2x800000 32) : Prop := ∀ i, (-50000 : Int) ≤ (ei i).toInt ∧ (ei i).toInt < 50000

/-! ## A conjunction of bits that are all one is one -/

/-- A left fold by `and` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, h => by
    rw [List.foldl_cons]
    exact foldl_andi_one f l _ (IntOp.andi_eq_one.2 ⟨hi, h a List.mem_cons_self⟩)
      (fun n hn => h n (List.mem_cons_of_mem _ hn))

/-- A reduction by `and` from 1 of an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x _ _ hinit (fun n _ => hx n)

/-! ## The moved index -/

/-- One word moved into range: `v + 50000` where `v < 0`, else `v`. -/
def wrapWord (v : BitVec 32) : BitVec 32 :=
  Scalar.select (IntOp.cmpi .slt v 0#32) (IntOp.addi v 50000#32) v

/-- A word in `[-50000, 50000)` moves into `[0, 49999]`: a negative one by adding 50000 (no wrap-around at 32 bits),
    a nonnegative one unchanged. -/
theorem wrapWord_range (v : BitVec 32) (h1 : (-50000 : Int) ≤ v.toInt) (h2 : v.toInt < 50000) :
    (0 : Int) ≤ (wrapWord v).toInt ∧ (wrapWord v).toInt ≤ 49999 := by
  have h0 : (0#32 : BitVec 32).toInt = 0 := by decide
  have h5 : (50000#32 : BitVec 32).toInt = 50000 := by decide
  unfold wrapWord Scalar.select
  split
  · next hc =>
    have hneg : v.toInt < 0 := by have := IntOp.cmpi_slt.1 hc; rwa [h0] at this
    show (0 : Int) ≤ (v + 50000#32).toInt ∧ (v + 50000#32).toInt ≤ 49999
    rw [BitVec.toInt_add, h5]
    have hb : (v.toInt + 50000).bmod (2 ^ 32) = v.toInt + 50000 := by
      rw [Int.bmod_def]; split <;> omega
    rw [hb]; omega
  · next hc =>
    have hnn : ¬ v.toInt < 0 := fun hlt => hc (IntOp.cmpi_slt.2 (by rw [h0]; exact hlt))
    omega

/-- Every entry of the moved-index column is a moved word of the index vector. -/
theorem wrapIdx_apply (r : IVec S800000 32) (i : S800000x1.Idx) : ∃ k, wrapIdx r i = wrapWord (r k) := ⟨_, rfl⟩

/-- With every index in `[-50000, 50000)` the range test of the moved indices is 1 everywhere. -/
theorem inRange_wrapIdx (r : IVec S800000 32) (hr : ∀ k, (-50000 : Int) ≤ (r k).toInt ∧ (r k).toInt < 50000)
    (i : S800000x64.Idx) : inRange (wrapIdx r) i = 1#1 := by
  have h0 : (0#32 : BitVec 32).toInt = 0 := by decide
  have h4 : (49999#32 : BitVec 32).toInt = 49999 := by decide
  unfold inRange broadcastInDim
  refine reduce_andi_one _ _ _ _ _ rfl (fun j => ?_)
  obtain ⟨k, hk⟩ := wrapIdx_apply r j
  obtain ⟨hlo, hhi⟩ := wrapWord_range (r k) (hr k).1 (hr k).2
  show IntOp.andi (IntOp.cmpi .sge (wrapIdx r j) 0#32) (IntOp.cmpi .sle (wrapIdx r j) 49999#32) = 1#1
  rw [hk]
  exact IntOp.andi_eq_one.2 ⟨IntOp.cmpi_sge.2 (by rw [h0]; exact hlo), IntOp.cmpi_sle.2 (by rw [h4]; exact hhi)⟩

/-- With every index in range the filling lookup is the lookup. -/
theorem takeFill_of_range (x : FVec Ideal S50000x64 .f32) (r : IVec S800000 32)
    (hr : ∀ k, (-50000 : Int) ≤ (r k).toInt ∧ (r k).toInt < 50000) :
    takeFill (F := Ideal) x r = gatherRows x r := by
  funext i
  unfold takeFill
  rw [ValueIdx.select_apply, inRange_wrapIdx r hr i, ValueIdx.select_one]

/-- Every entry of the source row of the edge list is an entry of the edge list. -/
theorem idxRow_apply (ei : IVec S2x800000 32) (k : S800000.Idx) : ∃ i, idxRow ei k = ei i := ⟨_, rfl⟩

/-- Every entry of the target row of the edge list is an entry of the edge list. -/
theorem idxCol_apply (ei : IVec S2x800000 32) (k : S800000.Idx) : ∃ i, idxCol ei k = ei i := ⟨_, rfl⟩

/-- The precondition's last conjunct, read: the edge list is in range. -/
theorem inRange_of_pre (x0 : FVec Ideal S50000x64 .f32) (x1 : IVec S2x800000 32) (x2 : FVec Ideal S800000x64 .f32)
    (x3 : FVec Ideal S192x128 .f32) (x4 : FVec Ideal S128 .f32) (x5 : FVec Ideal S128x64 .f32) (x6 : FVec Ideal S64 .f32)
    (x7 : FVec Ideal S128x128 .f32) (x8 : FVec Ideal S128 .f32) (x9 : FVec Ideal S128x64 .f32) (x10 : FVec Ideal S64 .f32)
    (h : Cert.Pre_finite_inputs.fn (F := Ideal) x0 x1 x2 x3 x4 x5 x6 x7 x8 x9 x10 = fun _ => 1#1) : InRange x1 := by
  haveI : Subsingleton Cert.Pre_finite_inputs.S_.Idx := ⟨fun a b => funext fun d => d.elim0⟩
  have hlo : (4294917296#32 : BitVec 32).toInt = -50000 := by decide
  have hhi : (50000#32 : BitVec 32).toInt = 50000 := by decide
  have h0 := congrFun h ValueIdx.ix0
  dsimp only [Cert.Pre_finite_inputs.fn, Cert.Pre_finite_inputs.fn_part1, Cert.Pre_finite_inputs.fn_part2,
    Cert.Pre_finite_inputs.fn_part3] at h0
  -- the outermost conjunction: everything before, and the `all` over the edge list
  have hall := (IntOp.andi_eq_one.1 h0).2
  intro i
  -- the conjunction at one entry of the edge list
  have hi := Host.reduce_andi_all _ _ _ _ _ hall i
  obtain ⟨hge, hlt⟩ := IntOp.andi_eq_one.1 hi
  have hge' := IntOp.cmpi_sge.1 hge
  have hlt' := IntOp.cmpi_slt.1 hlt
  exact ⟨by rw [← hlo]; exact hge', by rw [← hhi]; exact hlt'⟩

/-- With the edge list in range every moved index lies in `[0, 49999]`, so the filling lookup is the lookup. -/
theorem takeFill_row (x : FVec Ideal S50000x64 .f32) (ei : IVec S2x800000 32) (h : InRange ei) :
    takeFill (F := Ideal) x (idxRow ei) = gatherRows x (idxRow ei) :=
  takeFill_of_range x (idxRow ei) (fun k => by obtain ⟨i, hi⟩ := idxRow_apply ei k; rw [hi]; exact h i)

theorem takeFill_col (x : FVec Ideal S50000x64 .f32) (ei : IVec S2x800000 32) (h : InRange ei) :
    takeFill (F := Ideal) x (idxCol ei) = gatherRows x (idxCol ei) :=
  takeFill_of_range x (idxCol ei) (fun k => by obtain ⟨i, hi⟩ := idxCol_apply ei k; rw [hi]; exact h i)

end Cert.IndexRange

end
-- ==== Proof.Algebra.lean ====
/-
  The one law that joins the two spellings of the perceptrons: a finite sum over a + b terms is the sum of the first a
  plus the sum of the last b, in any commutative additive monoid — the extended reals among them, infinities included.
  Nothing is distributed over a sum and nothing is cancelled, so no entry has to be finite.
-/
import proofs.«403002_j19292993094376_4_alg».proof.Proof.Spec
import Mathlib.Algebra.BigOperators.Fin

noncomputable section

namespace Cert.Spec

open Idealize.ShloMosaic Idealize.ShloMosaic.ValueIdx

/-- A sum over `a + b` terms is the sum of the first `a` plus the sum of the last `b`. -/
private theorem sum_runs {M : Type} [AddCommMonoid M] (a b : Nat) (f : Fin (a + b) → M) :
    ∑ i, f i = (∑ i : Fin a, f ⟨i.val, by omega⟩) + ∑ i : Fin b, f ⟨a + i.val, by omega⟩ := by
  rw [Fin.sum_univ_add]; rfl

/-- A sum over 128 terms is the sum of its two runs of 64. -/
private theorem sum_128 {M : Type} [AddCommMonoid M] (f : Fin 128 → M) :
    ∑ i, f i = (∑ a : Fin 64, f ⟨a.val, by omega⟩) + ∑ a : Fin 64, f ⟨64 + a.val, by omega⟩ :=
  sum_runs 64 64 f

/-- A sum over 192 terms is the sum of its three runs of 64, added in that order. -/
private theorem sum_192 {M : Type} [AddCommMonoid M] (f : Fin 192 → M) :
    ∑ i, f i = ((∑ a : Fin 64, f ⟨a.val, by omega⟩) + ∑ a : Fin 64, f ⟨64 + a.val, by omega⟩)
      + ∑ a : Fin 64, f ⟨128 + a.val, by omega⟩ := by
  have h := sum_runs 128 64 f
  rw [h, sum_128 (fun i : Fin 128 => f ⟨i.val, by omega⟩)]

/-- The edge perceptron slab by slab is the perceptron on the joined rows: a sum over 192 features is the sum of
    its three runs of 64 (addition on the extended reals is commutative and associative; nothing is distributed). -/
theorem edgeK_eq_mlpR {E : Nat} (xr xc ea : Arr2 E 64) (wa wb wc : Arr2 64 128) (b1' : Arr2 1 128) (w2 : Arr2 128 64)
    (b2' : Arr2 1 64) (u : Arr2 E 192) (w1 : Arr2 192 128) (b1 : Arr1 128) (b2 : Arr1 64)
    (hu0 : ∀ (e : Fin E) (a : Fin 64), u (ix2 e (⟨a.val, by omega⟩ : Fin 192)) = xr (ix2 e a))
    (hu1 : ∀ (e : Fin E) (a : Fin 64), u (ix2 e (⟨64 + a.val, by omega⟩ : Fin 192)) = xc (ix2 e a))
    (hu2 : ∀ (e : Fin E) (a : Fin 64), u (ix2 e (⟨128 + a.val, by omega⟩ : Fin 192)) = ea (ix2 e a))
    (hw0 : ∀ (a : Fin 64) (k : Fin 128), w1 (ix2 (⟨a.val, by omega⟩ : Fin 192) k) = wa (ix2 a k))
    (hw1 : ∀ (a : Fin 64) (k : Fin 128), w1 (ix2 (⟨64 + a.val, by omega⟩ : Fin 192) k) = wb (ix2 a k))
    (hw2 : ∀ (a : Fin 64) (k : Fin 128), w1 (ix2 (⟨128 + a.val, by omega⟩ : Fin 192) k) = wc (ix2 a k))
    (hb1 : ∀ k : Fin 128, b1' (ix2 (0 : Fin 1) k) = b1 (ix1 k))
    (hb2 : ∀ j : Fin 64, b2' (ix2 (0 : Fin 1) j) = b2 (ix1 j))
    (e : Fin E) (j : Fin 64) :
    edgeK xr xc ea wa wb wc b1' w2 b2' e j = mlpR u w1 b1 w2 b2 e j := by
  unfold edgeK mlpR
  rw [hb2 j]
  refine congrArg (· + b2 (ix1 j)) ?_
  refine Finset.sum_congr rfl fun k _ => ?_
  rw [hb1 k, sum_192 (fun a : Fin 192 => u (ix2 e a) * w1 (ix2 a k))]
  simp only [hu0, hu1, hu2, hw0, hw1, hw2]

/-- The node perceptron slab by slab is the perceptron on the joined rows, whose second run of 64 features is
    the mean message. -/
theorem nodeK_eq_mlpR {N : Nat} (x agg : Arr2 N 64) (cnt : Arr2 N 1) (wa wb : Arr2 64 128) (b1' : Arr2 1 128)
    (w2 : Arr2 128 64) (b2' : Arr2 1 64) (u : Arr2 N 128) (w1 : Arr2 128 128) (b1 : Arr1 128) (b2 : Arr1 64)
    (hu0 : ∀ (n : Fin N) (a : Fin 64), u (ix2 n (⟨a.val, by omega⟩ : Fin 128)) = x (ix2 n a))
    (hu1 : ∀ (n : Fin N) (a : Fin 64), u (ix2 n (⟨64 + a.val, by omega⟩ : Fin 128))
        = Ideal.div (agg (ix2 n a)) (max (cnt (ix2 n (0 : Fin 1))) oneW))
    (hw0 : ∀ (a : Fin 64) (k : Fin 128), w1 (ix2 (⟨a.val, by omega⟩ : Fin 128) k) = wa (ix2 a k))
    (hw1 : ∀ (a : Fin 64) (k : Fin 128), w1 (ix2 (⟨64 + a.val, by omega⟩ : Fin 128) k) = wb (ix2 a k))
    (hb1 : ∀ k : Fin 128, b1' (ix2 (0 : Fin 1) k) = b1 (ix1 k))
    (hb2 : ∀ j : Fin 64, b2' (ix2 (0 : Fin 1) j) = b2 (ix1 j))
    (n : Fin N) (j : Fin 64) :
    nodeK x agg cnt wa wb b1' w2 b2' n j = mlpR u w1 b1 w2 b2 n j := by
  unfold nodeK mlpR
  rw [hb2 j]
  refine congrArg (· + b2 (ix1 j)) ?_
  refine Finset.sum_congr rfl fun k _ => ?_
  rw [hb1 k, sum_128 (fun a : Fin 128 => u (ix2 n a) * w1 (ix2 a k))]
  simp only [hu0, hu1, hw0, hw1]

end Cert.Spec

end
-- ==== Proof.RefValue.lean ====
/-
  The reference read index by index.  Each of its two perceptrons is a product of joined rows by the first weight
  matrix (a sum over the joined features), a broadcast bias, the rectifier, a product by the second matrix (a sum over
  128) and a broadcast bias.  A joined row is read run by run: features 0–63, 64–127 (and 128–191) of the join are the
  pieces' features 0–63; the node stage's second piece is the summed messages over the count, the count at least one.
-/
import proofs.«403002_j19292993094376_4_alg».proof.Proof.Gen.ReferenceIdeal.Read
import proofs.«403002_j19292993094376_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's new edge features, index by index: the perceptron on the joined rows. -/
theorem ref_edge (x0 : FVec Ideal S50000x64 .f32) (x1 : IVec S2x800000 32) (x2 : FVec Ideal S800000x64 .f32)
    (x3 : FVec Ideal S192x128 .f32) (x4 : FVec Ideal S128 .f32) (x5 : FVec Ideal S128x64 .f32) (x6 : FVec Ideal S64 .f32) (i : S800000x64.Idx) :
    val_main_v27 (F := Ideal) x0 x1 x2 x3 x4 x5 x6 i
      = Cert.Spec.mlpR (val_main_v18 (F := Ideal) x0 x1 x2) x3 x4 x5 x6 (i 0) (i 1) := by
  obtain ⟨e, j, rfl⟩ : ∃ (e : Fin 800000) (j : Fin 64), i = ix2 e j := ⟨i 0, i 1, eq_ix2 i⟩
  have l24 : ∀ k : Fin 128, lidx_main_v24 (ix2 e j) k = ix2 e k := fun k =>
    funext fun a => Fin.ext (by match a with | ⟨0, _⟩ => rfl | ⟨1, _⟩ => rfl)
  have r24 : ∀ k : Fin 128, ridx_main_v24 (ix2 e j) k = ix2 k j := fun k =>
    funext fun a => Fin.ext (by match a with | ⟨0, _⟩ => rfl | ⟨1, _⟩ => rfl)
  have b26 : idx_main_v25 (idx_main_v26 (ix2 e j)) = ix1 j :=
    funext fun a => Fin.ext (by match a with | ⟨0, _⟩ => rfl)
  have l19 : ∀ (k : Fin 128) (a : Fin 192), lidx_main_v19 (ix2 e k) a = ix2 e a := fun k a =>
    funext fun d => Fin.ext (by match d with | ⟨0, _⟩ => rfl | ⟨1, _⟩ => rfl)
  have r19 : ∀ (k : Fin 128) (a : Fin 192), ridx_main_v19 (ix2 e k) a = ix2 a k := fun k a =>
    funext fun d => Fin.ext (by match d with | ⟨0, _⟩ => rfl | ⟨1, _⟩ => rfl)
  have b21 : ∀ k : Fin 128, idx_main_v20 (idx_main_v21 (ix2 e k)) = ix1 k := fun k =>
    funext fun a => Fin.ext (by match a with | ⟨0, _⟩ => rfl)
  simp only [val_main_v27_apply, val_main_v24_apply, val_main_v26_apply, val_main_v25_apply, val_main_v23_apply,
    val_main_v22_apply, val_main_v19_apply, val_main_v21_apply, val_main_v20_apply, val_main_call0_v0_apply,
    val_main_call0_cst_apply, l24, r24, b26, l19, r19, b21, Ideal.addf_def, Ideal.maximumf_def, Ideal.ofBits_def]
  rfl

/-- The reference's new node features, index by index: the perceptron on the joined rows. -/
theorem ref_node (x0 : FVec Ideal S50000x64 .f32) (x1 : IVec S2x800000 32) (x2 : FVec Ideal S800000x64 .f32)
    (x3 : FVec Ideal S192x128 .f32) (x4 : FVec Ideal S128 .f32) (x5 : FVec Ideal S128x64 .f32) (x6 : FVec Ideal S64 .f32)
    (x7 : FVec Ideal S128x128 .f32) (x8 : FVec Ideal S128 .f32) (x9 : FVec Ideal S128x64 .f32) (x10 : FVec Ideal S64 .f32) (i : S50000x64.Idx) :
    val_main_v49 (F := Ideal) x0 x1 x2 x3 x4 x5 x6 x7 x8 x9 x10 i
      = Cert.Spec.mlpR (val_main_v40 (F := Ideal) x0 x1 x2 x3 x4 x5 x6) x7 x8 x9 x10 (i 0) (i 1) := by
  obtain ⟨n, j, rfl⟩ : ∃ (n : Fin 50000) (j : Fin 64), i = ix2 n j := ⟨i 0, i 1, eq_ix2 i⟩
  have l46 : ∀ k : Fin 128, lidx_main_v46 (ix2 n j) k = ix2 n k := fun k =>
    funext fun a => Fin.ext (by match a with | ⟨0, _⟩ => rfl | ⟨1, _⟩ => rfl)
  have r46 : ∀ k : Fin 128, ridx_main_v46 (ix2 n j) k = ix2 k j := fun k =>
    funext fun a => Fin.ext (by match a with | ⟨0, _⟩ => rfl | ⟨1, _⟩ => rfl)
  have b48 : idx_main_v47 (idx_main_v48 (ix2 n j)) = ix1 j :=
    funext fun a => Fin.ext (by match a with | ⟨0, _⟩ => rfl)
  have l41 : ∀ (k : Fin 128) (a : Fin 128), lidx_main_v41 (ix2 n k) a = ix2 n a := fun k a =>
    funext fun d => Fin.ext (by match d with | ⟨0, _⟩ => rfl | ⟨1, _⟩ => rfl)
  have r41 : ∀ (k : Fin 128) (a : Fin 128), ridx_main_v41 (ix2 n k) a = ix2 a k := fun k a =>
    funext fun d => Fin.ext (by match d with | ⟨0, _⟩ => rfl | ⟨1, _⟩ => rfl)
  have b43 : ∀ k : Fin 128, idx_main_v42 (idx_main_v43 (ix2 n k)) = ix1 k := fun k =>
    funext fun a => Fin.ext (by match a with | ⟨0, _⟩ => rfl)
  simp only [val_main_v49_apply, val_main_v46_apply, val_main_v48_apply, val_main_v47_apply, val_main_v45_apply,
    val_main_v44_apply, val_main_v41_apply, val_main_v43_apply, val_main_v42_apply, val_main_call1_v0_apply,
    val_main_call1_cst_apply, l46, r46, b48, l41, r41, b43, Ideal.addf_def, Ideal.maximumf_def, Ideal.ofBits_def]
  rfl

/-! ## The joined rows, run by run -/

theorem cat3_0 (x0 : FVec Ideal S50000x64 .f32) (x1 : IVec S2x800000 32) (x2 : FVec Ideal S800000x64 .f32) (e : Fin 800000) (a : Fin 64) :
    val_main_v18 (F := Ideal) x0 x1 x2 (ix2 e (⟨a.val, by omega⟩ : Fin 192)) = val_main_v10 (F := Ideal) x0 x1 (ix2 e a) := by
  unfold val_main_v18
  generalize val_main_v10 (F := Ideal) x0 x1 = y10
  generalize val_main_v17 (F := Ideal) x0 x1 = y17
  exact concatenate_apply_piece (1 : Fin S800000x192.rank)
    [⟨S800000x64, y10⟩, ⟨S800000x64, y17⟩, ⟨S800000x64, x2⟩] concatenates_S800000x64_S800000x64_S800000x64_S800000x192_d1 _
    0 (by show 0 < 3; omega) S800000x64 y10 rfl rfl 0 rfl (ix2 e a)
    (fun b hb => by match b with | ⟨0, _⟩ => rfl | ⟨1, _⟩ => exact absurd rfl hb) (Nat.zero_add a.val)
theorem cat3_1 (x0 : FVec Ideal S50000x64 .f32) (x1 : IVec S2x800000 32) (x2 : FVec Ideal S800000x64 .f32) (e : Fin 800000) (a : Fin 64) :
    val_main_v18 (F := Ideal) x0 x1 x2 (ix2 e (⟨64 + a.val, by omega⟩ : Fin 192)) = val_main_v17 (F := Ideal) x0 x1 (ix2 e a) := by
  unfold val_main_v18
  generalize val_main_v10 (F := Ideal) x0 x1 = y10
  generalize val_main_v17 (F := Ideal) x0 x1 = y17
  exact concatenate_apply_piece (1 : Fin S800000x192.rank)
    [⟨S800000x64, y10⟩, ⟨S800000x64, y17⟩, ⟨S800000x64, x2⟩] concatenates_S800000x64_S800000x64_S800000x64_S800000x192_d1 _
    1 (by show 1 < 3; omega) S800000x64 y17 rfl rfl 64 rfl (ix2 e a)
    (fun b hb => by match b with | ⟨0, _⟩ => rfl | ⟨1, _⟩ => exact absurd rfl hb) rfl
theorem cat3_2 (x0 : FVec Ideal S50000x64 .f32) (x1 : IVec S2x800000 32) (x2 : FVec Ideal S800000x64 .f32) (e : Fin 800000) (a : Fin 64) :
    val_main_v18 (F := Ideal) x0 x1 x2 (ix2 e (⟨128 + a.val, by omega⟩ : Fin 192)) = x2 (ix2 e a) := by
  unfold val_main_v18
  generalize val_main_v10 (F := Ideal) x0 x1 = y10
  generalize val_main_v17 (F := Ideal) x0 x1 = y17
  exact concatenate_apply_piece (1 : Fin S800000x192.rank)
    [⟨S800000x64, y10⟩, ⟨S800000x64, y17⟩, ⟨S800000x64, x2⟩] concatenates_S800000x64_S800000x64_S800000x64_S800000x192_d1 _
    2 (by show 2 < 3; omega) S800000x64 x2 rfl rfl 128 rfl (ix2 e a)
    (fun b hb => by match b with | ⟨0, _⟩ => rfl | ⟨1, _⟩ => exact absurd rfl hb) rfl

theorem cat2_0 (x0 : FVec Ideal S50000x64 .f32) (x1 : IVec S2x800000 32) (x2 : FVec Ideal S800000x64 .f32)
    (x3 : FVec Ideal S192x128 .f32) (x4 : FVec Ideal S128 .f32) (x5 : FVec Ideal S128x64 .f32) (x6 : FVec Ideal S64 .f32) (n : Fin 50000) (a : Fin 64) :
    val_main_v40 (F := Ideal) x0 x1 x2 x3 x4 x5 x6 (ix2 n (⟨a.val, by omega⟩ : Fin 128)) = x0 (ix2 n a) := by
  unfold val_main_v40
  generalize val_main_v39 (F := Ideal) x0 x1 x2 x3 x4 x5 x6 = y39
  exact concatenate_pair_apply_left (1 : Fin S50000x128.rank) x0 y39 concatenates_S50000x64_S50000x64_S50000x128_d1 _ rfl
    (ix2 n a) (fun b => by match b with | ⟨0, _⟩ => rfl | ⟨1, _⟩ => rfl)
/-- The second run of a node's joined row is its mean message: the summed messages over the count, the count at
    least one. -/
theorem cat2_1 (x0 : FVec Ideal S50000x64 .f32) (x1 : IVec S2x800000 32) (x2 : FVec Ideal S800000x64 .f32)
    (x3 : FVec Ideal S192x128 .f32) (x4 : FVec Ideal S128 .f32) (x5 : FVec Ideal S128x64 .f32) (x6 : FVec Ideal S64 .f32) (n : Fin 50000) (a : Fin 64) :
    val_main_v40 (F := Ideal) x0 x1 x2 x3 x4 x5 x6 (ix2 n (⟨64 + a.val, by omega⟩ : Fin 128))
      = Ideal.div (val_main_v30 (F := Ideal) x0 x1 x2 x3 x4 x5 x6 (ix2 n a))
          (max (val_main_v34 (F := Ideal) x1 (ix1 n)) Cert.Spec.oneW) := by
  have hcat : val_main_v40 (F := Ideal) x0 x1 x2 x3 x4 x5 x6 (ix2 n (⟨64 + a.val, by omega⟩ : Fin 128))
      = val_main_v39 (F := Ideal) x0 x1 x2 x3 x4 x5 x6 (ix2 n a) := by
    unfold val_main_v40
    generalize val_main_v39 (F := Ideal) x0 x1 x2 x3 x4 x5 x6 = y39
    exact concatenate_pair_apply_right (1 : Fin S50000x128.rank) x0 y39 concatenates_S50000x64_S50000x64_S50000x128_d1 _ rfl rfl
      (ix2 n a) (fun b hb => by match b with | ⟨0, _⟩ => rfl | ⟨1, _⟩ => exact absurd rfl hb)
      (by show a.val + 64 = 64 + a.val; omega)
  have b38 : idx_main_v37 (idx_main_v38 (ix2 n a)) = ix1 n :=
    funext fun d => Fin.ext (by match d with | ⟨0, _⟩ => rfl)
  rw [hcat, val_main_v39_apply, val_main_v38_apply, val_main_v37_apply, val_main_v36_apply, val_main_v35_apply,
    val_main_cst_5_apply, b38]
  simp only [Ideal.hostDivf_def, Ideal.maximumf_def, Ideal.ofBits_def]

end Cert.ReferenceIdeal.RefValue

end
-- ==== Proof.Bridge.lean ====
/-
  The two programs compute one function.  Edge stage: with the edge list in range the filling lookup is the plain
  lookup, the slabs of the first weight matrix are its rows 0–63, 64–127 and 128–191, the one-row bias matrices are the
  bias vectors, and the sum over the 192 joined features is the sum of the three runs of 64: the slab-by-slab
  perceptron is the reference's perceptron on joined rows.  Node stage: both programs sum the SAME messages at the same
  targets (one scatter, applied to equal arrays) and count the same edges; the mean, the two slabs and the biases
  are matched the same way.
-/
import proofs.«403002_j19292993094376_4_alg».proof.Proof.EdgeValue
import proofs.«403002_j19292993094376_4_alg».proof.Proof.NodeValue
import proofs.«403002_j19292993094376_4_alg».proof.Proof.HostValues
import proofs.«403002_j19292993094376_4_alg».proof.Proof.IndexRange
import proofs.«403002_j19292993094376_4_alg».proof.Proof.Algebra
import proofs.«403002_j19292993094376_4_alg».proof.Proof.RefValue
import Idealize.ShloMosaic.Lib.ValueLayout

set_option maxRecDepth 16384

noncomputable section

namespace Cert.Bridge

open Cert.KernelIdeal Cert.KernelIdeal.Gen Cert.KernelIdeal.HostTerms
open Idealize.ShloMosaic Idealize.ShloMosaic.TcCoe Idealize.SL.Sem Idealize.ShloMosaic.ValueIdx
open Cert.Spec Cert.IndexRange

/-! ## The reference's stages are the host terms -/

/-- The reference's lookup of the source rows is the lookup of the kernel's host side. -/
theorem ref_rows (x0 : FVec Ideal S50000x64 .f32) (x1 : IVec S2x800000 32) :
    Cert.ReferenceIdeal.Read.val_main_v10 (F := Ideal) x0 x1 = gatherRows x0 (idxRow x1) := rfl

/-- The reference's lookup of the target rows likewise. -/
theorem ref_cols (x0 : FVec Ideal S50000x64 .f32) (x1 : IVec S2x800000 32) :
    Cert.ReferenceIdeal.Read.val_main_v17 (F := Ideal) x0 x1 = gatherRows x0 (idxCol x1) := rfl

/-- The reference's count of arriving edges is the kernel's. -/
theorem ref_cnt (x1 : IVec S2x800000 32) :
    Cert.ReferenceIdeal.Read.val_main_v34 (F := Ideal) x1 = cntSum (F := Ideal) x1 := rfl

/-- A length-`n` vector cast to one column reads, at row `p`, the vector at `p`. -/
theorem col_apply {n : Nat} (x : (⟨1, ![n]⟩ : Shape).Idx → EReal) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_two, Shape.rowMajor_val_one]
    show p.val = p.val * 1 + 0
    omega)

/-! ## The edge stage -/

theorem edge_arrays (x0 : FVec Ideal S50000x64 .f32) (x1 : IVec S2x800000 32) (x2 : FVec Ideal S800000x64 .f32)
    (x3 : FVec Ideal S192x128 .f32) (x4 : FVec Ideal S128 .f32) (x5 : FVec Ideal S128x64 .f32) (x6 : FVec Ideal S64 .f32)
    (hR : InRange x1) (i : S800000x64.Idx) :
    edgeK (takeFill (F := Ideal) x0 (idxRow x1)) (takeFill (F := Ideal) x0 (idxCol x1)) x2
        (extractStridedSlice S64x128 ![0, 0] x3 slices_S192x128_S64x128_0_0)
        (extractStridedSlice S64x128 ![64, 0] x3 slices_S192x128_S64x128_64_0)
        (extractStridedSlice S64x128 ![128, 0] x3 slices_S192x128_S64x128_128_0)
        (shapeCast S1x128 x4 shapeCasts_S128_S1x128) x5 (shapeCast S1x64 x6 shapeCasts_S64_S1x64) (i 0) (i 1)
      = Cert.ReferenceIdeal.Read.val_main_v27 (F := Ideal) x0 x1 x2 x3 x4 x5 x6 i := by
  rw [takeFill_row x0 x1 hR, takeFill_col x0 x1 hR, Cert.ReferenceIdeal.RefValue.ref_edge]
  exact edgeK_eq_mlpR _ _ _ _ _ _ _ _ _ _ _ _ _
    (fun e a => (Cert.ReferenceIdeal.RefValue.cat3_0 x0 x1 x2 e a).trans (congrFun (ref_rows x0 x1) _))
    (fun e a => (Cert.ReferenceIdeal.RefValue.cat3_1 x0 x1 x2 e a).trans (congrFun (ref_cols x0 x1) _))
    (fun e a => Cert.ReferenceIdeal.RefValue.cat3_2 x0 x1 x2 e a)
    (fun a k => (slice2_axis0_apply 0 x3 slices_S192x128_S64x128_0_0 a k ⟨a.val, by omega⟩ (Nat.zero_add _).symm).symm)
    (fun a k => (slice2_axis0_apply 64 x3 slices_S192x128_S64x128_64_0 a k ⟨64 + a.val, by omega⟩ rfl).symm)
    (fun a k => (slice2_axis0_apply 128 x3 slices_S192x128_S64x128_128_0 a k ⟨128 + a.val, by omega⟩ rfl).symm)
    (fun k => shapeCast_a_1a_apply x4 shapeCasts_S128_S1x128 0 k)
    (fun j => shapeCast_a_1a_apply x6 shapeCasts_S64_S1x64 0 j)
    (i 0) (i 1)

/-! ## The node stage -/

theorem node_arrays (x0 : FVec Ideal S50000x64 .f32) (x1 : IVec S2x800000 32) (x2 : FVec Ideal S800000x64 .f32)
    (x3 : FVec Ideal S192x128 .f32) (x4 : FVec Ideal S128 .f32) (x5 : FVec Ideal S128x64 .f32) (x6 : FVec Ideal S64 .f32)
    (x7 : FVec Ideal S128x128 .f32) (x8 : FVec Ideal S128 .f32) (x9 : FVec Ideal S128x64 .f32) (x10 : FVec Ideal S64 .f32)
    (u : FVec Ideal S800000x64 .f32) (hu : u = Cert.ReferenceIdeal.Read.val_main_v27 (F := Ideal) x0 x1 x2 x3 x4 x5 x6)
    (i : S50000x64.Idx) :
    nodeK x0 (aggSum (F := Ideal) x1 u) (shapeCast S50000x1 (cntSum (F := Ideal) x1) shapeCasts_S50000_S50000x1)
        (extractStridedSlice S64x128 ![0, 0] x7 slices_S128x128_S64x128_0_0)
        (extractStridedSlice S64x128 ![64, 0] x7 slices_S128x128_S64x128_64_0)
        (shapeCast S1x128 x8 shapeCasts_S128_S1x128) x9 (shapeCast S1x64 x10 shapeCasts_S64_S1x64) (i 0) (i 1)
      = Cert.ReferenceIdeal.Read.val_main_v49 (F := Ideal) x0 x1 x2 x3 x4 x5 x6 x7 x8 x9 x10 i := by
  subst hu
  rw [Cert.ReferenceIdeal.RefValue.ref_node]
  exact nodeK_eq_mlpR _ _ _ _ _ _ _ _ _ _ _ _
    (fun n a => Cert.ReferenceIdeal.RefValue.cat2_0 x0 x1 x2 x3 x4 x5 x6 n a)
    (fun n a => (Cert.ReferenceIdeal.RefValue.cat2_1 x0 x1 x2 x3 x4 x5 x6 n a).trans (by
      rw [col_apply (cntSum (F := Ideal) x1) shapeCasts_S50000_S50000x1 n, ref_cnt]
      rfl))
    (fun a k => (slice2_axis0_apply 0 x7 slices_S128x128_S64x128_0_0 a k ⟨a.val, by omega⟩ (Nat.zero_add _).symm).symm)
    (fun a k => (slice2_axis0_apply 64 x7 slices_S128x128_S64x128_64_0 a k ⟨64 + a.val, by omega⟩ rfl).symm)
    (fun k => shapeCast_a_1a_apply x8 shapeCasts_S128_S1x128 0 k)
    (fun j => shapeCast_a_1a_apply x10 shapeCasts_S64_S1x64 0 j)
    (i 0) (i 1)

/-! ## At the program's memory -/

variable (m : (ℓ : Loc nD τ sig) → Buf (Elt Ideal) ℓ) (ρ : Dev nD → PrngReg)

/-- What the edge region leaves is the reference's new edge features of the launch arrays. -/
theorem edge_eq (c : Dev nD) (hR : InRange (m ((c.tc : Thread nD τ).loc main_arg1))) :
    (dat0 (F := Ideal) (V4 m ρ) c).arrAt 9 cfg0.N
      = Cert.ReferenceIdeal.Read.val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.KernelIdeal.EdgeValue.edge_final (V4 m ρ) c]
  funext i
  rw [Cert.KernelIdeal.HostValues.V4_v4, Cert.KernelIdeal.HostValues.V4_v5, Cert.KernelIdeal.HostValues.V4_arg2,
    Cert.KernelIdeal.HostValues.V4_v6, Cert.KernelIdeal.HostValues.V4_v7, Cert.KernelIdeal.HostValues.V4_v8,
    Cert.KernelIdeal.HostValues.V4_v11, Cert.KernelIdeal.HostValues.V4_arg5, Cert.KernelIdeal.HostValues.V4_v12]
  exact edge_arrays _ _ _ _ _ _ _ hR i

/-- What the node region leaves is the reference's new node features of the launch arrays. -/
theorem node_eq (c : Dev nD) (hR : InRange (m ((c.tc : Thread nD τ).loc main_arg1))) :
    (dat1 (F := Ideal) (V6 m ρ) c).arrAt 8 cfg1.N
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.KernelIdeal.NodeValue.node_final (V6 m ρ) c]
  funext i
  rw [Cert.KernelIdeal.HostValues.V6_arg0, Cert.KernelIdeal.HostValues.V6_v18, Cert.KernelIdeal.HostValues.V6_v23,
    Cert.KernelIdeal.HostValues.V6_v9, Cert.KernelIdeal.HostValues.V6_v10, Cert.KernelIdeal.HostValues.V6_v13,
    Cert.KernelIdeal.HostValues.V6_arg9, Cert.KernelIdeal.HostValues.V6_v14]
  exact node_arrays _ _ _ _ _ _ _ _ _ _ _ _ (edge_eq m ρ c hR) i

end Cert.Bridge

end
-- ==== Proof.lean ====
/-
  The certificate of the graph message-passing layer: an edge perceptron on the looked-up end-point features and the
  edge's own, the new edge features summed at their target nodes and divided by the number of arriving edges (at
  least one), and a node perceptron on the node's features and that mean.  The kernel looks the end points up on
  the host with a filling lookup, splits each first-layer product into 64-row slabs computed in two pipelined
  regions, and takes the mean inside the node region; the reference joins the pieces and multiplies once.

  Claimed under: every float input finite (not used) and every entry of the edge list a row number of the
  50000-row node table, counted from the start or, when negative, from the end (−50000 ≤ entry < 50000) — outside
  that range the reference's indexing runs off the table (its lookup clamps) while the kernel's lookup fills.

  The three frames are the generated ones (the reference's is its generated run with the results dropped); the ideal
  pass rewrote nothing, so `preserves` is `True`; `algebraic` names both results of the kernel's run as what the two
  regions' write-backs leave (the launch theorem called once more with those arrays in the post) and shows each equal
  to the reference's stage of the same launch arrays (Proof/Bridge.lean).
-/
import proofs.«403002_j19292993094376_4_alg».proof.Defs
import proofs.«403002_j19292993094376_4_alg».proof.Proof.Gen.Kernel
import proofs.«403002_j19292993094376_4_alg».proof.Proof.Gen.Kernel.Skeleton
import proofs.«403002_j19292993094376_4_alg».proof.Proof.Gen.Kernel.Launch
import proofs.«403002_j19292993094376_4_alg».proof.Proof.Gen.Kernel.Points
import proofs.«403002_j19292993094376_4_alg».proof.Proof.Gen.Kernel.Frame
import proofs.«403002_j19292993094376_4_alg».proof.Proof.Gen.KernelIdeal
import proofs.«403002_j19292993094376_4_alg».proof.Proof.Gen.KernelIdeal.Skeleton
import proofs.«403002_j19292993094376_4_alg».proof.Proof.Gen.KernelIdeal.Launch
import proofs.«403002_j19292993094376_4_alg».proof.Proof.Gen.KernelIdeal.Points
import proofs.«403002_j19292993094376_4_alg».proof.Proof.Gen.KernelIdeal.Frame
import proofs.«403002_j19292993094376_4_alg».proof.Proof.Gen.ReferenceIdeal
import proofs.«403002_j19292993094376_4_alg».proof.Proof.Gen.ReferenceIdeal.Run
import proofs.«403002_j19292993094376_4_alg».proof.Proof.Gen.ReferenceIdeal.Read
import proofs.«403002_j19292993094376_4_alg».proof.Proof.Gen.Pre_finite_inputs
import proofs.«403002_j19292993094376_4_alg».proof.Proof.RunAll
import proofs.«403002_j19292993094376_4_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The edge list of a memory that meets the precondition is in range. -/
theorem range_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.IndexRange.InRange (m ((c.tc : Thread Cert.KernelIdeal.nD Cert.KernelIdeal.τ).loc Cert.KernelIdeal.main_arg1)) :=
  Cert.IndexRange.inRange_of_pre _ _ _ _ _ _ _ _ _ _ _ (hpre c)

theorem algebraic : Cert.algebraic_KernelIdeal_ReferenceIdeal := by
  intro m ρ m' ρ' hpre hagree
  refine ⟨fun c => (Cert.KernelIdeal.Gen.dat1 (F := Ideal) (Cert.KernelIdeal.Gen.V6 m ρ) c).arrAt 8 Cert.KernelIdeal.cfg1.N,
    fun c => (Cert.KernelIdeal.Gen.dat0 (F := Ideal) (Cert.KernelIdeal.Gen.V4 m ρ) c).arrAt 9 Cert.KernelIdeal.cfg0.N,
    Cert.KernelIdeal.RunAll.run_named (F := Ideal) m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v49_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.node_eq m ρ c (range_of_pre m hpre c)).symm
  · refine (h c).2.1.trans ?_
    rw [Cert.ReferenceIdeal.Read.val_main_v27_eq, (hagree c).1, (hagree c).2.1, (hagree c).2.2.1, (hagree c).2.2.2.1, (hagree c).2.2.2.2.1, (hagree c).2.2.2.2.2.1, (hagree c).2.2.2.2.2.2.1]
    exact (Cert.Bridge.edge_eq m ρ c (range_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
